-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1000#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S16x128 : Shape := ⟨2, ![16, 128]⟩
abbrev S4096x1000 : Shape := ⟨2, ![4096, 1000]⟩
abbrev S4096x1 : Shape := ⟨2, ![4096, 1]⟩
abbrev S8x128 : Shape := ⟨2, ![8, 128]⟩
abbrev S1x1 : Shape := ⟨2, ![1, 1]⟩
abbrev S256x1000 : Shape := ⟨2, ![256, 1000]⟩
abbrev S256x1 : Shape := ⟨2, ![256, 1]⟩
abbrev S256 : Shape := ⟨1, ![256]⟩
abbrev S1 : Shape := ⟨1, ![1]⟩
abbrev S2x8x128 : Shape := ⟨3, ![2, 8, 128]⟩
abbrev S2x1x1 : Shape := ⟨3, ![2, 1, 1]⟩
abbrev S2 : Shape := ⟨1, ![2]⟩

abbrev nBuf : Space → Nat
  | .hbm => 31
  | .vmem => 10
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S16x128, .f32⟩
  | .hbm, ⟨12, _⟩ => ⟨S16x128, .f32⟩
  | .hbm, ⟨13, _⟩ => ⟨S2x8x128, .f32⟩
  | .hbm, ⟨14, _⟩ => ⟨S2x1x1, .f32⟩
  | .hbm, ⟨15, _⟩ => ⟨S2, .f32⟩
  | .hbm, ⟨16, _⟩ => ⟨S2x8x128, .f32⟩
  | .hbm, ⟨17, _⟩ => ⟨S2x1x1, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S4096x1000, .f32⟩
  | .local _ .vmem, ⟨1, _⟩ => ⟨S4096x1000, .f32⟩
  | .local _ .vmem, ⟨2, _⟩ => ⟨S4096x1, .i32⟩
  | .local _ .vmem, ⟨3, _⟩ => ⟨S4096x1, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | .local _ .vmem, ⟨9, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg8 : BitVec 32 := Scf.iv c0_i32_2 c1_i32 k0_t1
  let c256_i32 : BitVec 32 := 256#32
  let v20 : BitVec 32 := Scalar.muli arg8 c256_i32
  v20
def k0_off1 (k0_t1 : Fin k0_t1_loop.trips) : Fin 2 → Nat :=
  let c0_i32_2 : BitVec 32 := 0#32
  let c1_i32 : BitVec 32 := 1#32
  let arg8 : BitVec 32 := Scf.iv c0_i32_2 c1_i32 k0_t1
  let c256_i32 : BitVec 32 := 256#32
  let v20 : BitVec 32 := Scalar.muli arg8 c256_i32
  let v21 : BitVec 32 := v20
  let v22 : Index := Scalar.indexCast v21
  let c0_12 : Index := 0#32
  ![v22.toNat, 0]
def k0_off2 (k0_t1 : Fin k0_t1_loop.trips) : Fin 2 → Nat :=
  let c0_i32_2 : BitVec 32 := 0#32
  let c1_i32 : BitVec 32 := 1#32
  let arg8 : BitVec 32 := Scf.iv c0_i32_2 c1_i32 k0_t1
  let c256_i32 : BitVec 32 := 256#32
  let v20 : BitVec 32 := Scalar.muli arg8 c256_i32
  let v21 : BitVec 32 := v20
  let v24 : Index := Scalar.indexCast v21
  let c0_13 : Index := 0#32
  ![v24.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S65536 : S_.BroadcastsInDim S65536 (![] : Fin 0 → Fin S65536.rank)
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S256x1000 : 0 < S256x1000.numel
  h_S256x1 : 0 < S256x1.numel
  shapeCasts_S256x1_S256x1 : S256x1.ShapeCasts S256x1
  reduces_S256x1000_S256 : S256x1000.Reduces [1] S256
  shapeCasts_S256_S256x1 : S256.ShapeCasts S256x1
  iota_S256x1000_d1_w32 : S256x1000.Iotas .tc 32 [1]
  broadcasts_S256x1_S256x1000 : S256x1.Broadcasts S256x1000
  reduces_S256x1_S1 : S256x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S16x128_S2x8x128 : S16x128.ShapeCasts S2x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1000.size a ≤ S4096x1000.size a
  k0_off2_inb : ∀ k0_t1 : Fin k0_t1_loop.trips, ∀ a, (k0_off2 k0_t1) a + S256x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1000.size a ≤ S65536x1000.size a
  hwx0_0 : ∀ i : grid0.Coords, EltTy.bits .f32 = 32 ∨ (Rect.block (s := S65536x1000) S4096x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_arg0) S4096x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1000, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1000, .f32⟩
  | .hbm, ⟨11, _⟩ => ⟨S65536x1000, .f32⟩
  | .hbm, ⟨12, _⟩ => ⟨S65536x1, .i32⟩
  | .hbm, ⟨13, _⟩ => ⟨S_, .i32⟩
  | .hbm, ⟨14, _⟩ => ⟨S65536x1, .i32⟩
  | .hbm, ⟨15, _⟩ => ⟨S65536x1, .i1⟩
  | .hbm, ⟨16, _⟩ => ⟨S_, .i32⟩
  | .hbm, ⟨17, _⟩ => ⟨S65536x1, .i32⟩
  | .hbm, ⟨18, _⟩ => ⟨S65536x1, .i32⟩
  | .hbm, ⟨19, _⟩ => ⟨S65536x1, .i32⟩
  | .hbm, ⟨20, _⟩ => ⟨S65536x1x1, .i32⟩
  | .hbm, ⟨21, _⟩ => ⟨S1, .i32⟩
  | .hbm, ⟨22, _⟩ => ⟨S_, .i32⟩
  | .hbm, ⟨23, _⟩ => ⟨S65536x1x1, .i32⟩
  | .hbm, ⟨24, _⟩ => ⟨S65536x1x1, .i1⟩
  | .hbm, ⟨25, _⟩ => ⟨S1x1x1, .i32⟩
  | .hbm, ⟨26, _⟩ => ⟨S65536x1x1, .i32⟩
  | .hbm, ⟨27, _⟩ => ⟨S65536x1x1, .i1⟩
  | .hbm, ⟨28, _⟩ => ⟨S65536x1x1, .i1⟩
  | .hbm, ⟨29, _⟩ => ⟨S_, .i1⟩
  | .hbm, ⟨30, _⟩ => ⟨S65536x1, .i1⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_2 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_cst_5 : Ref sig .tc := ⟨.hbm, 49, rfl⟩
abbrev main_v16 : Ref sig .tc := ⟨.hbm, 50, rfl⟩
abbrev main_v17 : Ref sig .tc := ⟨.hbm, 51, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1000_0_1 : S65536x1.BroadcastsInDim S65536x1000 (![0, 1] : Fin 2 → Fin S65536x1000.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536_S_d0 : S65536.ReducesTo [0] S_
  reducesTo_S65536x1_S_d0_1 : S65536x1.ReducesTo [0, 1] S_
  gather_S65536x1000_S65536x1x1_S65536x1_n_1_0_0_1_2_11_wf : GatherDims.WF S65536x1000 S65536x1x1 S65536x1 [] [1] [0] [1] [0] 2 ![1, 1]

variable [Facts₀]

def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf

class Facts : Prop extends Facts₀ where

variable [Facts]
-- ==== Proof.K.Common.lean ====
/-
  The kernel's grid is 2 x 8: point t = 8 p + j (p the core-split axis, j the row-block axis). The body resets its two
  1x1 accumulators where j = 0, adds the block's two partial sums into them at every point, and writes them (broadcast over
  the 8x128 output blocks) where j = 7. Here: the two branch conditions in closed form over the 16 points, where the output
  windows are idle and where they are written back, the spellings of the staging and scratch memrefs the body is called
  with, and the region invariant with both accumulators named.
-/
import proofs.«423638_j28484223107964_3_alg».proof.Proof.Gen.Kernel.Frame
import proofs.«423638_j28484223107964_3_alg».proof.Proof.Gen.Kernel.Skeleton
import proofs.«423638_j28484223107964_3_alg».proof.Proof.Gen.Kernel.Loops

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The reset branch's condition (`pl.when(j == 0)`), from the grid coordinates. -/
abbrev condReset (i : grid0.Coords) : Prop :=
  (Scalar.cmpi .ne (Scalar.extui (Scalar.cmpi .eq (BitVec.ofNat 32 (i 1).val) 0#32)) 0#32) = 1#1
/-- It holds exactly at the points with j = 0. -/
theorem hcondReset : ∀ t : Fin cfg0.N, condReset (grid0.coords t) ↔ t.val % 8 = 0 :=
  (by decide +kernel : ∀ t : Fin grid0.N, condReset (grid0.coords t) ↔ t.val % 8 = 0)

/-- The write-out branch's condition (`pl.when(j == 7)`). -/
abbrev condOut (i : grid0.Coords) : Prop := k0_cond2 i = 1#1
/-- It holds exactly at the points with j = 7. -/
theorem hcondOut : ∀ t : Fin cfg0.N, condOut (grid0.coords t) ↔ t.val % 8 = 7 :=
  (by decide +kernel : ∀ t : Fin grid0.N, condOut (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from j = 7 the body stores nothing into the two output blocks, and the pipeline does not write them back. -/
theorem idle_2 : ∀ t : Fin cfg0.N, ¬condOut (grid0.coords t) → cfg0.idle 2 (grid0.coords t) = true := by decide +kernel
theorem idle_3 : ∀ t : Fin cfg0.N, ¬condOut (grid0.coords t) → cfg0.idle 3 (grid0.coords t) = true := by decide +kernel
theorem noFlush_2 : ∀ t : Fin cfg0.N, ¬condOut (grid0.coords t) → (cfg0.win 2).flush t = false := by decide +kernel
theorem noFlush_3 : ∀ t : Fin cfg0.N, ¬condOut (grid0.coords t) → (cfg0.win 3).flush t = false := by decide +kernel
/-- At j = 7 both output blocks are stored whole. -/
theorem live_2 : ∀ t : Fin cfg0.N, condOut (grid0.coords t) → cfg0.idle 2 (grid0.coords t) = false := by decide +kernel
theorem live_3 : ∀ t : Fin cfg0.N, condOut (grid0.coords t) → cfg0.idle 3 (grid0.coords t) = false := by decide +kernel

/-! ## The memrefs the body is called with -/

abbrev ms0 (t : Fin cfg0.N) : Memref sig .tc .vmem S4096x1000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)
/-- The two accumulators: whole scoped 1x1 buffers. -/
abbrev scG : Memref sig .tc .vmem S1x1 .f32 := Memref.whole cc0_scratch0
abbrev scN : Memref sig .tc .vmem S1x1 .f32 := Memref.whole cc0_scratch1
/-- One staging buffer of each output window, through which a block's contents are stated. -/
abbrev VO2 : View sig .tc .vmem S8x128 .f32 := (Memref.whole cc0_stg2_0 : Memref sig .tc .vmem S8x128 .f32).view
abbrev VO3 : View sig .tc .vmem S8x128 .f32 := (Memref.whole cc0_stg3_0 : Memref sig .tc .vmem S8x128 .f32).view

/-- The region's class invariant with the two accumulators as memrefs owned at some contents. -/
theorem PhiA_eq (c : Dev nD) :
    (Pipeline.ΦA spec0 c : sProp 𝕄)
      = iprop(iprop((∃ d, owns (c : Thread nD τ) scG fullShare d) ∗ (∃ d, owns (c : Thread nD τ) scN fullShare d)) ∗ (∃ r, prngReg c r)) := by
  unfold Pipeline.ΦA; rw [scopedRest0_eq]; simp only [scG, scN, owns_whole]; try rfl

end Cert.Kernel.Hand

end
-- ==== Proof.K.RunA.lean ====
/-
  The body at a point with j = 0: the reset branch stores zeros into both accumulators (whatever they held), then the
  block's two partial sums are added and stored back; the write-out branch is not taken.
-/
import proofs.«423638_j28484223107964_3_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs — the two input blocks at their contents, the two output blocks and the two accumulators at ANY
    contents — runs to a continuation that holds the inputs and the output blocks as they were and each accumulator with the
    listed pieces written: the pieces are what the run finds, and they do not depend on what the accumulators held. -/
noncomputable def runA (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : condReset i) (hc1 : ¬condOut i)
    (x0 : Vec F S4096x1000 .f32) (x1 : Vec F S4096x1 .i32) :
    Σ' (LS0 : List (View.Piece (Elt F) S1x1 .f32)), { LS1 : List (View.Piece (Elt F) S1x1 .f32) //
      ∀ (xs0 xs1 : Vec F S1x1 .f32) (xi2 xi3 : Vec F S8x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__cosine_loss_kernel i arg2 harg2 arg3 harg3 arg4 harg4 arg5 harg5 arg6 harg6 arg7 harg7) K } := by
  refine ⟨?_, ?_, fun xs0 xs1 xi2 xi3 E K => ?run⟩
  case run =>
    simp only [cc0__cosine_loss_kernel_eq_skeleton]; unfold cc0__cosine_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Hand

end
-- ==== Proof.K.RunB.lean ====
/-
  The body at a point with 0 < j < 7: neither branch is taken; the two accumulators are read, the block's two partial sums (the chunk loop's result) are added, and they are stored back.
-/
import proofs.«423638_j28484223107964_3_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs — the two input blocks at their contents, the two output blocks and the two accumulators at the
    contents it is handed — runs to a continuation that holds the inputs and the output blocks as they were and each
    accumulator with the listed pieces written: the pieces are what the run finds. -/
noncomputable def runB (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬condReset i) (hc1 : ¬condOut i)
    (x0 : Vec F S4096x1000 .f32) (x1 : Vec F S4096x1 .i32) (xs0 xs1 : Vec F S1x1 .f32) :
    Σ' (LS0 : List (View.Piece (Elt F) S1x1 .f32)), { LS1 : List (View.Piece (Elt F) S1x1 .f32) //
      ∀ (xi2 xi3 : Vec F S8x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__cosine_loss_kernel i arg2 harg2 arg3 harg3 arg4 harg4 arg5 harg5 arg6 harg6 arg7 harg7) K } := by
  refine ⟨?_, ?_, fun xi2 xi3 E K => ?run⟩
  case run =>
    simp only [cc0__cosine_loss_kernel_eq_skeleton]; unfold cc0__cosine_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Hand

end
-- ==== Proof.K.RunC.lean ====
/-
  The body at a point with j = 7: the reset branch is not taken; the block's two partial sums are added to the accumulators
  and stored back, and then each accumulator, read back, is broadcast over its 8x128 output block and stored there.
-/
import proofs.«423638_j28484223107964_3_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs — the two input blocks and the two accumulators at their contents, the two output blocks at ANY
    contents — runs to a continuation that holds the inputs as they were and each output block and each accumulator with the
    listed pieces written: the pieces are what the run finds. -/
noncomputable def runC (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬condReset i) (hc1 : condOut i)
    (x0 : Vec F S4096x1000 .f32) (x1 : Vec F S4096x1 .i32) (xs0 xs1 : Vec F S1x1 .f32) :
    Σ' (L2 : List (View.Piece (Elt F) S8x128 .f32)) (L3 : List (View.Piece (Elt F) S8x128 .f32))
       (LS0 : List (View.Piece (Elt F) S1x1 .f32)), { LS1 : List (View.Piece (Elt F) S1x1 .f32) //
      ∀ (xi2 xi3 : Vec F S8x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__cosine_loss_kernel i arg2 harg2 arg3 harg3 arg4 harg4 arg5 harg5 arg6 harg6 arg7 harg7) K } := by
  refine ⟨?_, ?_, ?_, ?_, fun xi2 xi3 E K => ?run⟩
  case run =>
    simp only [cc0__cosine_loss_kernel_eq_skeleton]; unfold cc0__cosine_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; iexact HS1

end Cert.Kernel.Hand

end
-- ==== Proof.K.Frame.lean ====
/-
  The kernel's frame by hand. Per case of the body (j = 0 reset; 0 < j < 7; j = 7 write-out) what the run leaves in the two
  accumulators and, at j = 7, in the two output blocks, read back from the pieces the run found; the accumulators' contents
  point by point (`accAt`: at j = 0 the reset case's, else the case's contents over what the point before left); the proof
  data; the body obligation at every point; and the run of @main around the region.
-/
import proofs.«423638_j28484223107964_3_alg».proof.Proof.K.RunA
import proofs.«423638_j28484223107964_3_alg».proof.Proof.K.RunB
import proofs.«423638_j28484223107964_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Cases
variable (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole)

theorem coverA_G (hc0 : condReset i) (hc1 : ¬condOut i) (x0 : Vec F S4096x1000 .f32) (x1 : Vec F S4096x1 .i32) (y : S1x1.Idx) :
    ∃ pc ∈ (runA c i arg2 harg2 arg3 harg3 arg4 harg4 arg5 harg5 arg6 harg6 arg7 harg7 hc0 hc1 x0 x1).1, y ∈ pc.1.set :=
  View.cover_of_tiledL (runA c i arg2 harg2 arg3 harg3 arg4 harg4 arg5 harg5 arg6 harg6 arg7 harg7 hc0 hc1 x0 x1).1 S1x1.size (by sl_kernel_rfl) y
theorem coverA_N (hc0 : condReset i) (hc1 : ¬condOut i) (x0 : Vec F S4096x1000 .f32) (x1 : Vec F S4096x1 .i32) (y : S1x1.Idx) :
    ∃ pc ∈ (runA c i arg2 harg2 arg3 harg3 arg4 harg4 arg5 harg5 arg6 harg6 arg7 harg7 hc0 hc1 x0 x1).2.1, y ∈ pc.1.set :=
  View.cover_of_tiledL (runA c i arg2 harg2 arg3 harg3 arg4 harg4 arg5 harg5 arg6 harg6 arg7 harg7 hc0 hc1 x0 x1).2.1 S1x1.size (by sl_kernel_rfl) y
/-- The accumulators after the reset case: its pieces read back. -/
def accA (hc0 : condReset i) (hc1 : ¬condOut i) (x0 : Vec F S4096x1000 .f32) (x1 : Vec F S4096x1 .i32) : Vec F S1x1 .f32 × Vec F S1x1 .f32 :=
  (scG.view.read (Elt F) (scG.view.writes (Elt F) scG.view.junk (runA c i arg2 harg2 arg3 harg3 arg4 harg4 arg5 harg5 arg6 harg6 arg7 harg7 hc0 hc1 x0 x1).1),
   scN.view.read (Elt F) (scN.view.writes (Elt F) scN.view.junk (runA c i arg2 harg2 arg3 harg3 arg4 harg4 arg5 harg5 arg6 harg6 arg7 harg7 hc0 hc1 x0 x1).2.1))

theorem coverB_G (hc0 : ¬condReset i) (hc1 : ¬condOut i) (x0 : Vec F S4096x1000 .f32) (x1 : Vec F S4096x1 .i32) (xs0 xs1 : Vec F S1x1 .f32) (y : S1x1.Idx) :
    ∃ pc ∈ (runB c i arg2 harg2 arg3 harg3 arg4 harg4 arg5 harg5 arg6 harg6 arg7 harg7 hc0 hc1 x0 x1 xs0 xs1).1, y ∈ pc.1.set :=
  View.cover_of_tiledL (runB c i arg2 harg2 arg3 harg3 arg4 harg4 arg5 harg5 arg6 harg6 arg7 harg7 hc0 hc1 x0 x1 xs0 xs1).1 S1x1.size (by sl_kernel_rfl) y
theorem coverB_N (hc0 : ¬condReset i) (hc1 : ¬condOut i) (x0 : Vec F S4096x1000 .f32) (x1 : Vec F S4096x1 .i32) (xs0 xs1 : Vec F S1x1 .f32) (y : S1x1.Idx) :
    ∃ pc ∈ (runB c i arg2 harg2 arg3 harg3 arg4 harg4 arg5 harg5 arg6 harg6 arg7 harg7 hc0 hc1 x0 x1 xs0 xs1).2.1, y ∈ pc.1.set :=
  View.cover_of_tiledL (runB c i arg2 harg2 arg3 harg3 arg4 harg4 arg5 harg5 arg6 harg6 arg7 harg7 hc0 hc1 x0 x1 xs0 xs1).2.1 S1x1.size (by sl_kernel_rfl) y
/-- The accumulators after the middle case, over what they held. -/
def accB (hc0 : ¬condReset i) (hc1 : ¬condOut i) (x0 : Vec F S4096x1000 .f32) (x1 : Vec F S4096x1 .i32) (xs0 xs1 : Vec F S1x1 .f32) : Vec F S1x1 .f32 × Vec F S1x1 .f32 :=
  (scG.view.read (Elt F) (scG.view.writes (Elt F) scG.view.junk (runB c i arg2 harg2 arg3 harg3 arg4 harg4 arg5 harg5 arg6 harg6 arg7 harg7 hc0 hc1 x0 x1 xs0 xs1).1),
   scN.view.read (Elt F) (scN.view.writes (Elt F) scN.view.junk (runB c i arg2 harg2 arg3 harg3 arg4 harg4 arg5 harg5 arg6 harg6 arg7 harg7 hc0 hc1 x0 x1 xs0 xs1).2.1))

theorem coverC_2 (hc0 : ¬condReset i) (hc1 : condOut i) (x0 : Vec F S4096x1000 .f32) (x1 : Vec F S4096x1 .i32) (xs0 xs1 : Vec F S1x1 .f32) (y : S8x128.Idx) :
    ∃ pc ∈ (runC c i arg2 harg2 arg3 harg3 arg4 harg4 arg5 harg5 arg6 harg6 arg7 harg7 hc0 hc1 x0 x1 xs0 xs1).1, y ∈ pc.1.set :=
  View.cover_of_tiledL (runC c i arg2 harg2 arg3 harg3 arg4 harg4 arg5 harg5 arg6 harg6 arg7 harg7 hc0 hc1 x0 x1 xs0 xs1).1 S8x128.size (by sl_kernel_rfl) y
theorem coverC_3 (hc0 : ¬condReset i) (hc1 : condOut i) (x0 : Vec F S4096x1000 .f32) (x1 : Vec F S4096x1 .i32) (xs0 xs1 : Vec F S1x1 .f32) (y : S8x128.Idx) :
    ∃ pc ∈ (runC c i arg2 harg2 arg3 harg3 arg4 harg4 arg5 harg5 arg6 harg6 arg7 harg7 hc0 hc1 x0 x1 xs0 xs1).2.1, y ∈ pc.1.set :=
  View.cover_of_tiledL (runC c i arg2 harg2 arg3 harg3 arg4 harg4 arg5 harg5 arg6 harg6 arg7 harg7 hc0 hc1 x0 x1 xs0 xs1).2.1 S8x128.size (by sl_kernel_rfl) y
theorem coverC_G (hc0 : ¬condReset i) (hc1 : condOut i) (x0 : Vec F S4096x1000 .f32) (x1 : Vec F S4096x1 .i32) (xs0 xs1 : Vec F S1x1 .f32) (y : S1x1.Idx) :
    ∃ pc ∈ (runC c i arg2 harg2 arg3 harg3 arg4 harg4 arg5 harg5 arg6 harg6 arg7 harg7 hc0 hc1 x0 x1 xs0 xs1).2.2.1, y ∈ pc.1.set :=
  View.cover_of_tiledL (runC c i arg2 harg2 arg3 harg3 arg4 harg4 arg5 harg5 arg6 harg6 arg7 harg7 hc0 hc1 x0 x1 xs0 xs1).2.2.1 S1x1.size (by sl_kernel_rfl) y
theorem coverC_N (hc0 : ¬condReset i) (hc1 : condOut i) (x0 : Vec F S4096x1000 .f32) (x1 : Vec F S4096x1 .i32) (xs0 xs1 : Vec F S1x1 .f32) (y : S1x1.Idx) :
    ∃ pc ∈ (runC c i arg2 harg2 arg3 harg3 arg4 harg4 arg5 harg5 arg6 harg6 arg7 harg7 hc0 hc1 x0 x1 xs0 xs1).2.2.2.1, y ∈ pc.1.set :=
  View.cover_of_tiledL (runC c i arg2 harg2 arg3 harg3 arg4 harg4 arg5 harg5 arg6 harg6 arg7 harg7 hc0 hc1 x0 x1 xs0 xs1).2.2.2.1 S1x1.size (by sl_kernel_rfl) y
/-- The accumulators after the write-out case, over what they held. -/
def accC (hc0 : ¬condReset i) (hc1 : condOut i) (x0 : Vec F S4096x1000 .f32) (x1 : Vec F S4096x1 .i32) (xs0 xs1 : Vec F S1x1 .f32) : Vec F S1x1 .f32 × Vec F S1x1 .f32 :=
  (scG.view.read (Elt F) (scG.view.writes (Elt F) scG.view.junk (runC c i arg2 harg2 arg3 harg3 arg4 harg4 arg5 harg5 arg6 harg6 arg7 harg7 hc0 hc1 x0 x1 xs0 xs1).2.2.1),
   scN.view.read (Elt F) (scN.view.writes (Elt F) scN.view.junk (runC c i arg2 harg2 arg3 harg3 arg4 harg4 arg5 harg5 arg6 harg6 arg7 harg7 hc0 hc1 x0 x1 xs0 xs1).2.2.2.1))
/-- The two output blocks after the write-out case. -/
def outC (hc0 : ¬condReset i) (hc1 : condOut i) (x0 : Vec F S4096x1000 .f32) (x1 : Vec F S4096x1 .i32) (xs0 xs1 : Vec F S1x1 .f32) : Vec F S8x128 .f32 × Vec F S8x128 .f32 :=
  (VO2.read (Elt F) (VO2.writes (Elt F) VO2.junk (runC c i arg2 harg2 arg3 harg3 arg4 harg4 arg5 harg5 arg6 harg6 arg7 harg7 hc0 hc1 x0 x1 xs0 xs1).1),
   VO3.read (Elt F) (VO3.writes (Elt F) VO3.junk (runC c i arg2 harg2 arg3 harg3 arg4 harg4 arg5 harg5 arg6 harg6 arg7 harg7 hc0 hc1 x0 x1 xs0 xs1).2.1))

end Cases

/-! ## Point by point -/

theorem notOut_of_reset (t : Fin cfg0.N) (h0 : t.val % 8 = 0) : ¬condOut (grid0.coords t) := fun h => by
  have := (hcondOut t).mp h; omega
theorem notOut_of (t : Fin cfg0.N) (h7 : ¬t.val % 8 = 7) : ¬condOut (grid0.coords t) := fun h => h7 ((hcondOut t).mp h)
theorem notReset_of (t : Fin cfg0.N) (h0 : ¬t.val % 8 = 0) : ¬condReset (grid0.coords t) := fun h => h0 ((hcondReset t).mp h)

/-- The accumulators after a point with j = 0. -/
def stepA (c : Dev nD) (t : Fin cfg0.N) (h0 : t.val % 8 = 0) : Vec F S1x1 .f32 × Vec F S1x1 .f32 :=
  accA c (grid0.coords t) (ms0 t) (hs0 t) (ms1 t) (hs1 t) (ms2 t) (hs2 t) (ms3 t) (hs3 t) scG (Memref.isWhole_whole _) scN (Memref.isWhole_whole _) ((hcondReset t).mpr h0) (notOut_of_reset t h0) (iblk m c 0 t) (iblk m c 1 t)
/-- After a point with 0 < j < 7, over what the point before left. -/
def stepB (c : Dev nD) (t : Fin cfg0.N) (h0 : ¬t.val % 8 = 0) (h7 : ¬t.val % 8 = 7) (xs : Vec F S1x1 .f32 × Vec F S1x1 .f32) : Vec F S1x1 .f32 × Vec F S1x1 .f32 :=
  accB c (grid0.coords t) (ms0 t) (hs0 t) (ms1 t) (hs1 t) (ms2 t) (hs2 t) (ms3 t) (hs3 t) scG (Memref.isWhole_whole _) scN (Memref.isWhole_whole _) (notReset_of t h0) (notOut_of t h7) (iblk m c 0 t) (iblk m c 1 t) xs.1 xs.2
/-- After a point with j = 7, over what the point before left. -/
def stepC (c : Dev nD) (t : Fin cfg0.N) (h0 : ¬t.val % 8 = 0) (h7 : t.val % 8 = 7) (xs : Vec F S1x1 .f32 × Vec F S1x1 .f32) : Vec F S1x1 .f32 × Vec F S1x1 .f32 :=
  accC c (grid0.coords t) (ms0 t) (hs0 t) (ms1 t) (hs1 t) (ms2 t) (hs2 t) (ms3 t) (hs3 t) scG (Memref.isWhole_whole _) scN (Memref.isWhole_whole _) (notReset_of t h0) ((hcondOut t).mpr h7) (iblk m c 0 t) (iblk m c 1 t) xs.1 xs.2
/-- The two output blocks after a point with j = 7. -/
def stepOut (c : Dev nD) (t : Fin cfg0.N) (h0 : ¬t.val % 8 = 0) (h7 : t.val % 8 = 7) (xs : Vec F S1x1 .f32 × Vec F S1x1 .f32) : Vec F S8x128 .f32 × Vec F S8x128 .f32 :=
  outC c (grid0.coords t) (ms0 t) (hs0 t) (ms1 t) (hs1 t) (ms2 t) (hs2 t) (ms3 t) (hs3 t) scG (Memref.isWhole_whole _) scN (Memref.isWhole_whole _) (notReset_of t h0) ((hcondOut t).mpr h7) (iblk m c 0 t) (iblk m c 1 t) xs.1 xs.2

/-- THE ACCUMULATORS after the body at position `n`. -/
def accAt (c : Dev nD) : (n : ℕ) → n < cfg0.N → Vec F S1x1 .f32 × Vec F S1x1 .f32
  | 0, hn => stepA m c ⟨0, hn⟩ (Nat.zero_mod _)
  | n + 1, hn =>
    if h0 : (n + 1) % 8 = 0 then stepA m c ⟨n + 1, hn⟩ h0
    else if h7 : (n + 1) % 8 = 7 then stepC m c ⟨n + 1, hn⟩ h0 h7 (accAt c n (Nat.lt_of_succ_lt hn))
    else stepB m c ⟨n + 1, hn⟩ h0 h7 (accAt c n (Nat.lt_of_succ_lt hn))

theorem accAt_A (c : Dev nD) (t : Fin cfg0.N) (h0 : t.val % 8 = 0) : accAt m c t.val t.isLt = stepA m c t h0 := by
  obtain ⟨n, hn⟩ := t
  cases n with
  | zero => exact rfl
  | succ n => exact (dif_pos h0).trans rfl

theorem accAt_B (c : Dev nD) (t : Fin cfg0.N) (h0 : ¬t.val % 8 = 0) (h7 : ¬t.val % 8 = 7) :
    accAt m c t.val t.isLt = stepB m c t h0 h7 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem accAt_C (c : Dev nD) (t : Fin cfg0.N) (h0 : ¬t.val % 8 = 0) (h7 : t.val % 8 = 7) :
    accAt m c t.val t.isLt = stepC m c t h0 h7 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- THE OUTPUT BLOCKS after the body at position `n`: at j = 7 the write-out case's over the accumulators the point before
    left; elsewhere nothing is stored and nothing is written back, and what stands here is not consulted. -/
def outAt (c : Dev nD) (n : ℕ) (hn : n < cfg0.N) : Vec F S8x128 .f32 × Vec F S8x128 .f32 :=
  if h7 : n % 8 = 7 then
    stepOut m c ⟨n, hn⟩ (by show ¬n % 8 = 0; omega) h7 (accAt m c (n - 1) (Nat.lt_of_le_of_lt (Nat.sub_le _ _) hn))
  else (VO2.read (Elt F) VO2.junk, VO3.read (Elt F) VO3.junk)

theorem outAt_C (c : Dev nD) (t : Fin cfg0.N) (h0 : ¬t.val % 8 = 0) (h7 : t.val % 8 = 7) :
    outAt m c t.val t.isLt = stepOut m c t h0 h7 (accAt m c (t.val - 1) (Nat.lt_of_le_of_lt (Nat.sub_le _ _) t.isLt)) := by
  unfold outAt; rw [dif_pos h7]

/-- The region invariant before position `n`: before the first point the class's (the accumulators at anything);
    afterwards the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scG fullShare ((accAt m c n hn).1) ∗ owns (c : Thread nD τ) scN fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scG fullShare ((accAt m c n hn).1) ∗ owns (c : Thread nD τ) scN fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scG fullShare ((accAt m c (n - 1) (by omega)).1) ∗ owns (c : Thread nD τ) scN fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outAt m c t.val t.isLt).1
    | ⟨3, _⟩ => (outAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outAt m c t.val t.isLt).1 := by dsimp only [dats]
theorem after_3 (c : Dev nD) (t : Fin cfg0.N) : (dats m 0 c).after 3 t = (outAt m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in; the invariant
    hands the body the accumulators at what the point before left (at anything at the first point) and takes them back at this
    point's contents; the output blocks are handed back untouched away from j = 7 and with their pieces read back at j = 7. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  by_cases h0 : t.val % 8 = 0
  · have hno : ¬condOut (grid0.coords t) := notOut_of_reset t h0
    rw [Dat.leavesExact_idle (dats m 0 c) 2 t (idle_2 t hno) (noFlush_2 t hno)]
    rw [Dat.leavesExact_idle (dats m 0 c) 3 t (idle_3 t hno) (noFlush_3 t hno)]
    rw [accAt_A m c t h0]
    unfold stepA accA; (try dsimp only)
    by_cases hz : t.val = 0
    · rw [PhiS_castSucc m c t, PhiS_zero m c _ _ hz, PhiA_eq]
      iintro ⟨⟨⟨⟨%d6, HS0⟩, ⟨%d7, HS1⟩⟩, Hg⟩, Ho, ⟨%d0, H0⟩, ⟨%d1, H1⟩, ⟨%d2, H2⟩, ⟨%d3, H3⟩⟩
      iapply ((runA c (grid0.coords t) _ _ _ _ _ _ _ _ _ _ _ _ ((hcondReset t).mpr h0) hno (iblk m c 0 t) (iblk m c 1 t)).2.2 _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_G c _ _ _ _ _ _ _ _ _ _ _ _ _ _ _ _ _)
          · unfold owns; iexists _; isplitr
            swap; · iexact HS1
            ipureintro; exact View.read_writes_of_cover _ _ _ _ _ (coverA_N c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runA c (grid0.coords t) _ _ _ _ _ _ _ _ _ _ _ _ ((hcondReset t).mpr h0) hno (iblk m c 0 t) (iblk m c 1 t)).2.2 _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_G c _ _ _ _ _ _ _ _ _ _ _ _ _ _ _ _ _)
          · unfold owns; iexists _; isplitr
            swap; · iexact HS1
            ipureintro; exact View.read_writes_of_cover _ _ _ _ _ (coverA_N c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    by_cases h7 : t.val % 8 = 7
    · have hout : condOut (grid0.coords t) := (hcondOut t).mpr h7
      rw [show (dats m 0 c).leavesExact 2 t = owns (c : Thread nD τ) (ms2 t) fullShare ((dats m 0 c).after 2 t) from by
        unfold Dat.leavesExact; rw [live_2 t hout], after_2]
      rw [show (dats m 0 c).leavesExact 3 t = owns (c : Thread nD τ) (ms3 t) fullShare ((dats m 0 c).after 3 t) from by
        unfold Dat.leavesExact; rw [live_3 t hout], after_3]
      rw [accAt_C m c t h0 h7, outAt_C m c t h0 h7]
      unfold stepC stepOut accC outC; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runC c (grid0.coords t) _ _ _ _ _ _ _ _ _ _ _ _ (notReset_of t h0) hout (iblk m c 0 t) (iblk m c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverC_G c _ _ _ _ _ _ _ _ _ _ _ _ _ _ _ _ _ _ _)
          · unfold owns; iexists _; isplitr
            swap; · iexact HS1
            ipureintro; exact View.read_writes_of_cover _ _ _ _ _ (coverC_N c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 c _ _ _ _ _ _ _ _ _ _ _ _ _ _ _ _ _ _ _)
      · unfold owns; iexists _; isplitr
        swap; · iexact H3
        ipureintro; exact View.read_writes_of_cover _ _ _ _ _ (coverC_3 c _ _ _ _ _ _ _ _ _ _ _ _ _ _ _ _ _ _ _)
    · have hno : ¬condOut (grid0.coords t) := notOut_of t h7
      rw [Dat.leavesExact_idle (dats m 0 c) 2 t (idle_2 t hno) (noFlush_2 t hno)]
      rw [Dat.leavesExact_idle (dats m 0 c) 3 t (idle_3 t hno) (noFlush_3 t hno)]
      rw [accAt_B m c t h0 h7]
      unfold stepB accB; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runB c (grid0.coords t) _ _ _ _ _ _ _ _ _ _ _ _ (notReset_of t h0) hno (iblk m c 0 t) (iblk m c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB_G c _ _ _ _ _ _ _ _ _ _ _ _ _ _ _ _ _ _ _)
          · unfold owns; iexists _; isplitr
            swap; · iexact HS1
            ipureintro; exact View.read_writes_of_cover _ _ _ _ _ (coverB_N c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, every array of the pipeline at what the library computes from the proof
    data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Common.lean ====
/-
  The kernel's grid is 2 x 8: point t = 8 p + j (p the core-split axis, j the row-block axis). The body resets its two
  1x1 accumulators where j = 0, adds the block's two partial sums into them at every point, and writes them (broadcast over
  the 8x128 output blocks) where j = 7. Here: the two branch conditions in closed form over the 16 points, where the output
  windows are idle and where they are written back, the spellings of the staging and scratch memrefs the body is called
  with, and the region invariant with both accumulators named.
-/
import proofs.«423638_j28484223107964_3_alg».proof.Proof.Gen.KernelIdeal.Frame
import proofs.«423638_j28484223107964_3_alg».proof.Proof.Gen.KernelIdeal.Skeleton
import proofs.«423638_j28484223107964_3_alg».proof.Proof.Gen.KernelIdeal.Loops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The reset branch's condition (`pl.when(j == 0)`), from the grid coordinates. -/
abbrev condReset (i : grid0.Coords) : Prop :=
  (Scalar.cmpi .ne (Scalar.extui (Scalar.cmpi .eq (BitVec.ofNat 32 (i 1).val) 0#32)) 0#32) = 1#1
/-- It holds exactly at the points with j = 0. -/
theorem hcondReset : ∀ t : Fin cfg0.N, condReset (grid0.coords t) ↔ t.val % 8 = 0 :=
  (by decide +kernel : ∀ t : Fin grid0.N, condReset (grid0.coords t) ↔ t.val % 8 = 0)

/-- The write-out branch's condition (`pl.when(j == 7)`). -/
abbrev condOut (i : grid0.Coords) : Prop := k0_cond2 i = 1#1
/-- It holds exactly at the points with j = 7. -/
theorem hcondOut : ∀ t : Fin cfg0.N, condOut (grid0.coords t) ↔ t.val % 8 = 7 :=
  (by decide +kernel : ∀ t : Fin grid0.N, condOut (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from j = 7 the body stores nothing into the two output blocks, and the pipeline does not write them back. -/
theorem idle_2 : ∀ t : Fin cfg0.N, ¬condOut (grid0.coords t) → cfg0.idle 2 (grid0.coords t) = true := by decide +kernel
theorem idle_3 : ∀ t : Fin cfg0.N, ¬condOut (grid0.coords t) → cfg0.idle 3 (grid0.coords t) = true := by decide +kernel
theorem noFlush_2 : ∀ t : Fin cfg0.N, ¬condOut (grid0.coords t) → (cfg0.win 2).flush t = false := by decide +kernel
theorem noFlush_3 : ∀ t : Fin cfg0.N, ¬condOut (grid0.coords t) → (cfg0.win 3).flush t = false := by decide +kernel
/-- At j = 7 both output blocks are stored whole. -/
theorem live_2 : ∀ t : Fin cfg0.N, condOut (grid0.coords t) → cfg0.idle 2 (grid0.coords t) = false := by decide +kernel
theorem live_3 : ∀ t : Fin cfg0.N, condOut (grid0.coords t) → cfg0.idle 3 (grid0.coords t) = false := by decide +kernel

/-! ## The memrefs the body is called with -/

abbrev ms0 (t : Fin cfg0.N) : Memref sig .tc .vmem S4096x1000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)
/-- The two accumulators: whole scoped 1x1 buffers. -/
abbrev scG : Memref sig .tc .vmem S1x1 .f32 := Memref.whole cc0_scratch0
abbrev scN : Memref sig .tc .vmem S1x1 .f32 := Memref.whole cc0_scratch1
/-- One staging buffer of each output window, through which a block's contents are stated. -/
abbrev VO2 : View sig .tc .vmem S8x128 .f32 := (Memref.whole cc0_stg2_0 : Memref sig .tc .vmem S8x128 .f32).view
abbrev VO3 : View sig .tc .vmem S8x128 .f32 := (Memref.whole cc0_stg3_0 : Memref sig .tc .vmem S8x128 .f32).view

/-- The region's class invariant with the two accumulators as memrefs owned at some contents. -/
theorem PhiA_eq (c : Dev nD) :
    (Pipeline.ΦA spec0 c : sProp 𝕄)
      = iprop(iprop((∃ d, owns (c : Thread nD τ) scG fullShare d) ∗ (∃ d, owns (c : Thread nD τ) scN fullShare d)) ∗ (∃ r, prngReg c r)) := by
  unfold Pipeline.ΦA; rw [scopedRest0_eq]; simp only [scG, scN, owns_whole]; try rfl

end Cert.KernelIdeal.Hand

end
-- ==== Proof.KI.RunA.lean ====
/-
  The body at a point with j = 0: the reset branch stores zeros into both accumulators (whatever they held), then the
  block's two partial sums are added and stored back; the write-out branch is not taken.
-/
import proofs.«423638_j28484223107964_3_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs — the two input blocks at their contents, the two output blocks and the two accumulators at ANY
    contents — runs to a continuation that holds the inputs and the output blocks as they were and each accumulator with the
    listed pieces written: the pieces are what the run finds, and they do not depend on what the accumulators held. -/
noncomputable def runA (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : condReset i) (hc1 : ¬condOut i)
    (x0 : Vec F S4096x1000 .f32) (x1 : Vec F S4096x1 .i32) :
    Σ' (LS0 : List (View.Piece (Elt F) S1x1 .f32)), { LS1 : List (View.Piece (Elt F) S1x1 .f32) //
      ∀ (xs0 xs1 : Vec F S1x1 .f32) (xi2 xi3 : Vec F S8x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__cosine_loss_kernel i arg2 harg2 arg3 harg3 arg4 harg4 arg5 harg5 arg6 harg6 arg7 harg7) K } := by
  refine ⟨?_, ?_, fun xs0 xs1 xi2 xi3 E K => ?run⟩
  case run =>
    simp only [cc0__cosine_loss_kernel_eq_skeleton]; unfold cc0__cosine_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Hand

end
-- ==== Proof.KI.RunB.lean ====
/-
  The body at a point with 0 < j < 7: neither branch is taken; the two accumulators are read, the block's two partial sums (the chunk loop's result) are added, and they are stored back.
-/
import proofs.«423638_j28484223107964_3_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs — the two input blocks at their contents, the two output blocks and the two accumulators at the
    contents it is handed — runs to a continuation that holds the inputs and the output blocks as they were and each
    accumulator with the listed pieces written: the pieces are what the run finds. -/
noncomputable def runB (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬condReset i) (hc1 : ¬condOut i)
    (x0 : Vec F S4096x1000 .f32) (x1 : Vec F S4096x1 .i32) (xs0 xs1 : Vec F S1x1 .f32) :
    Σ' (LS0 : List (View.Piece (Elt F) S1x1 .f32)), { LS1 : List (View.Piece (Elt F) S1x1 .f32) //
      ∀ (xi2 xi3 : Vec F S8x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__cosine_loss_kernel i arg2 harg2 arg3 harg3 arg4 harg4 arg5 harg5 arg6 harg6 arg7 harg7) K } := by
  refine ⟨?_, ?_, fun xi2 xi3 E K => ?run⟩
  case run =>
    simp only [cc0__cosine_loss_kernel_eq_skeleton]; unfold cc0__cosine_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Hand

end
-- ==== Proof.KI.RunC.lean ====
/-
  The body at a point with j = 7: the reset branch is not taken; the block's two partial sums are added to the accumulators
  and stored back, and then each accumulator, read back, is broadcast over its 8x128 output block and stored there.
-/
import proofs.«423638_j28484223107964_3_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs — the two input blocks and the two accumulators at their contents, the two output blocks at ANY
    contents — runs to a continuation that holds the inputs as they were and each output block and each accumulator with the
    listed pieces written: the pieces are what the run finds. -/
noncomputable def runC (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬condReset i) (hc1 : condOut i)
    (x0 : Vec F S4096x1000 .f32) (x1 : Vec F S4096x1 .i32) (xs0 xs1 : Vec F S1x1 .f32) :
    Σ' (L2 : List (View.Piece (Elt F) S8x128 .f32)) (L3 : List (View.Piece (Elt F) S8x128 .f32))
       (LS0 : List (View.Piece (Elt F) S1x1 .f32)), { LS1 : List (View.Piece (Elt F) S1x1 .f32) //
      ∀ (xi2 xi3 : Vec F S8x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__cosine_loss_kernel i arg2 harg2 arg3 harg3 arg4 harg4 arg5 harg5 arg6 harg6 arg7 harg7) K } := by
  refine ⟨?_, ?_, ?_, ?_, fun xi2 xi3 E K => ?run⟩
  case run =>
    simp only [cc0__cosine_loss_kernel_eq_skeleton]; unfold cc0__cosine_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexists _; iexact HS1

end Cert.KernelIdeal.Hand

end
-- ==== Proof.KI.Frame.lean ====
/-
  The kernel's frame by hand. Per case of the body (j = 0 reset; 0 < j < 7; j = 7 write-out) what the run leaves in the two
  accumulators and, at j = 7, in the two output blocks, read back from the pieces the run found; the accumulators' contents
  point by point (`accAt`: at j = 0 the reset case's, else the case's contents over what the point before left); the proof
  data; the body obligation at every point; and the run of @main around the region.
-/
import proofs.«423638_j28484223107964_3_alg».proof.Proof.KI.RunA
import proofs.«423638_j28484223107964_3_alg».proof.Proof.KI.RunB
import proofs.«423638_j28484223107964_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Cases
variable (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole)

theorem coverA_G (hc0 : condReset i) (hc1 : ¬condOut i) (x0 : Vec F S4096x1000 .f32) (x1 : Vec F S4096x1 .i32) (y : S1x1.Idx) :
    ∃ pc ∈ (runA c i arg2 harg2 arg3 harg3 arg4 harg4 arg5 harg5 arg6 harg6 arg7 harg7 hc0 hc1 x0 x1).1, y ∈ pc.1.set :=
  View.cover_of_tiledL (runA c i arg2 harg2 arg3 harg3 arg4 harg4 arg5 harg5 arg6 harg6 arg7 harg7 hc0 hc1 x0 x1).1 S1x1.size (by sl_kernel_rfl) y
theorem coverA_N (hc0 : condReset i) (hc1 : ¬condOut i) (x0 : Vec F S4096x1000 .f32) (x1 : Vec F S4096x1 .i32) (y : S1x1.Idx) :
    ∃ pc ∈ (runA c i arg2 harg2 arg3 harg3 arg4 harg4 arg5 harg5 arg6 harg6 arg7 harg7 hc0 hc1 x0 x1).2.1, y ∈ pc.1.set :=
  View.cover_of_tiledL (runA c i arg2 harg2 arg3 harg3 arg4 harg4 arg5 harg5 arg6 harg6 arg7 harg7 hc0 hc1 x0 x1).2.1 S1x1.size (by sl_kernel_rfl) y
/-- The accumulators after the reset case: its pieces read back. -/
def accA (hc0 : condReset i) (hc1 : ¬condOut i) (x0 : Vec F S4096x1000 .f32) (x1 : Vec F S4096x1 .i32) : Vec F S1x1 .f32 × Vec F S1x1 .f32 :=
  (scG.view.read (Elt F) (scG.view.writes (Elt F) scG.view.junk (runA c i arg2 harg2 arg3 harg3 arg4 harg4 arg5 harg5 arg6 harg6 arg7 harg7 hc0 hc1 x0 x1).1),
   scN.view.read (Elt F) (scN.view.writes (Elt F) scN.view.junk (runA c i arg2 harg2 arg3 harg3 arg4 harg4 arg5 harg5 arg6 harg6 arg7 harg7 hc0 hc1 x0 x1).2.1))

theorem coverB_G (hc0 : ¬condReset i) (hc1 : ¬condOut i) (x0 : Vec F S4096x1000 .f32) (x1 : Vec F S4096x1 .i32) (xs0 xs1 : Vec F S1x1 .f32) (y : S1x1.Idx) :
    ∃ pc ∈ (runB c i arg2 harg2 arg3 harg3 arg4 harg4 arg5 harg5 arg6 harg6 arg7 harg7 hc0 hc1 x0 x1 xs0 xs1).1, y ∈ pc.1.set :=
  View.cover_of_tiledL (runB c i arg2 harg2 arg3 harg3 arg4 harg4 arg5 harg5 arg6 harg6 arg7 harg7 hc0 hc1 x0 x1 xs0 xs1).1 S1x1.size (by sl_kernel_rfl) y
theorem coverB_N (hc0 : ¬condReset i) (hc1 : ¬condOut i) (x0 : Vec F S4096x1000 .f32) (x1 : Vec F S4096x1 .i32) (xs0 xs1 : Vec F S1x1 .f32) (y : S1x1.Idx) :
    ∃ pc ∈ (runB c i arg2 harg2 arg3 harg3 arg4 harg4 arg5 harg5 arg6 harg6 arg7 harg7 hc0 hc1 x0 x1 xs0 xs1).2.1, y ∈ pc.1.set :=
  View.cover_of_tiledL (runB c i arg2 harg2 arg3 harg3 arg4 harg4 arg5 harg5 arg6 harg6 arg7 harg7 hc0 hc1 x0 x1 xs0 xs1).2.1 S1x1.size (by sl_kernel_rfl) y
/-- The accumulators after the middle case, over what they held. -/
def accB (hc0 : ¬condReset i) (hc1 : ¬condOut i) (x0 : Vec F S4096x1000 .f32) (x1 : Vec F S4096x1 .i32) (xs0 xs1 : Vec F S1x1 .f32) : Vec F S1x1 .f32 × Vec F S1x1 .f32 :=
  (scG.view.read (Elt F) (scG.view.writes (Elt F) scG.view.junk (runB c i arg2 harg2 arg3 harg3 arg4 harg4 arg5 harg5 arg6 harg6 arg7 harg7 hc0 hc1 x0 x1 xs0 xs1).1),
   scN.view.read (Elt F) (scN.view.writes (Elt F) scN.view.junk (runB c i arg2 harg2 arg3 harg3 arg4 harg4 arg5 harg5 arg6 harg6 arg7 harg7 hc0 hc1 x0 x1 xs0 xs1).2.1))

theorem coverC_2 (hc0 : ¬condReset i) (hc1 : condOut i) (x0 : Vec F S4096x1000 .f32) (x1 : Vec F S4096x1 .i32) (xs0 xs1 : Vec F S1x1 .f32) (y : S8x128.Idx) :
    ∃ pc ∈ (runC c i arg2 harg2 arg3 harg3 arg4 harg4 arg5 harg5 arg6 harg6 arg7 harg7 hc0 hc1 x0 x1 xs0 xs1).1, y ∈ pc.1.set :=
  View.cover_of_tiledL (runC c i arg2 harg2 arg3 harg3 arg4 harg4 arg5 harg5 arg6 harg6 arg7 harg7 hc0 hc1 x0 x1 xs0 xs1).1 S8x128.size (by sl_kernel_rfl) y
theorem coverC_3 (hc0 : ¬condReset i) (hc1 : condOut i) (x0 : Vec F S4096x1000 .f32) (x1 : Vec F S4096x1 .i32) (xs0 xs1 : Vec F S1x1 .f32) (y : S8x128.Idx) :
    ∃ pc ∈ (runC c i arg2 harg2 arg3 harg3 arg4 harg4 arg5 harg5 arg6 harg6 arg7 harg7 hc0 hc1 x0 x1 xs0 xs1).2.1, y ∈ pc.1.set :=
  View.cover_of_tiledL (runC c i arg2 harg2 arg3 harg3 arg4 harg4 arg5 harg5 arg6 harg6 arg7 harg7 hc0 hc1 x0 x1 xs0 xs1).2.1 S8x128.size (by sl_kernel_rfl) y
theorem coverC_G (hc0 : ¬condReset i) (hc1 : condOut i) (x0 : Vec F S4096x1000 .f32) (x1 : Vec F S4096x1 .i32) (xs0 xs1 : Vec F S1x1 .f32) (y : S1x1.Idx) :
    ∃ pc ∈ (runC c i arg2 harg2 arg3 harg3 arg4 harg4 arg5 harg5 arg6 harg6 arg7 harg7 hc0 hc1 x0 x1 xs0 xs1).2.2.1, y ∈ pc.1.set :=
  View.cover_of_tiledL (runC c i arg2 harg2 arg3 harg3 arg4 harg4 arg5 harg5 arg6 harg6 arg7 harg7 hc0 hc1 x0 x1 xs0 xs1).2.2.1 S1x1.size (by sl_kernel_rfl) y
theorem coverC_N (hc0 : ¬condReset i) (hc1 : condOut i) (x0 : Vec F S4096x1000 .f32) (x1 : Vec F S4096x1 .i32) (xs0 xs1 : Vec F S1x1 .f32) (y : S1x1.Idx) :
    ∃ pc ∈ (runC c i arg2 harg2 arg3 harg3 arg4 harg4 arg5 harg5 arg6 harg6 arg7 harg7 hc0 hc1 x0 x1 xs0 xs1).2.2.2.1, y ∈ pc.1.set :=
  View.cover_of_tiledL (runC c i arg2 harg2 arg3 harg3 arg4 harg4 arg5 harg5 arg6 harg6 arg7 harg7 hc0 hc1 x0 x1 xs0 xs1).2.2.2.1 S1x1.size (by sl_kernel_rfl) y
/-- The accumulators after the write-out case, over what they held. -/
def accC (hc0 : ¬condReset i) (hc1 : condOut i) (x0 : Vec F S4096x1000 .f32) (x1 : Vec F S4096x1 .i32) (xs0 xs1 : Vec F S1x1 .f32) : Vec F S1x1 .f32 × Vec F S1x1 .f32 :=
  (scG.view.read (Elt F) (scG.view.writes (Elt F) scG.view.junk (runC c i arg2 harg2 arg3 harg3 arg4 harg4 arg5 harg5 arg6 harg6 arg7 harg7 hc0 hc1 x0 x1 xs0 xs1).2.2.1),
   scN.view.read (Elt F) (scN.view.writes (Elt F) scN.view.junk (runC c i arg2 harg2 arg3 harg3 arg4 harg4 arg5 harg5 arg6 harg6 arg7 harg7 hc0 hc1 x0 x1 xs0 xs1).2.2.2.1))
/-- The two output blocks after the write-out case. -/
def outC (hc0 : ¬condReset i) (hc1 : condOut i) (x0 : Vec F S4096x1000 .f32) (x1 : Vec F S4096x1 .i32) (xs0 xs1 : Vec F S1x1 .f32) : Vec F S8x128 .f32 × Vec F S8x128 .f32 :=
  (VO2.read (Elt F) (VO2.writes (Elt F) VO2.junk (runC c i arg2 harg2 arg3 harg3 arg4 harg4 arg5 harg5 arg6 harg6 arg7 harg7 hc0 hc1 x0 x1 xs0 xs1).1),
   VO3.read (Elt F) (VO3.writes (Elt F) VO3.junk (runC c i arg2 harg2 arg3 harg3 arg4 harg4 arg5 harg5 arg6 harg6 arg7 harg7 hc0 hc1 x0 x1 xs0 xs1).2.1))

end Cases

/-! ## Point by point -/

theorem notOut_of_reset (t : Fin cfg0.N) (h0 : t.val % 8 = 0) : ¬condOut (grid0.coords t) := fun h => by
  have := (hcondOut t).mp h; omega
theorem notOut_of (t : Fin cfg0.N) (h7 : ¬t.val % 8 = 7) : ¬condOut (grid0.coords t) := fun h => h7 ((hcondOut t).mp h)
theorem notReset_of (t : Fin cfg0.N) (h0 : ¬t.val % 8 = 0) : ¬condReset (grid0.coords t) := fun h => h0 ((hcondReset t).mp h)

/-- The accumulators after a point with j = 0. -/
def stepA (c : Dev nD) (t : Fin cfg0.N) (h0 : t.val % 8 = 0) : Vec F S1x1 .f32 × Vec F S1x1 .f32 :=
  accA c (grid0.coords t) (ms0 t) (hs0 t) (ms1 t) (hs1 t) (ms2 t) (hs2 t) (ms3 t) (hs3 t) scG (Memref.isWhole_whole _) scN (Memref.isWhole_whole _) ((hcondReset t).mpr h0) (notOut_of_reset t h0) (iblk m c 0 t) (iblk m c 1 t)
/-- After a point with 0 < j < 7, over what the point before left. -/
def stepB (c : Dev nD) (t : Fin cfg0.N) (h0 : ¬t.val % 8 = 0) (h7 : ¬t.val % 8 = 7) (xs : Vec F S1x1 .f32 × Vec F S1x1 .f32) : Vec F S1x1 .f32 × Vec F S1x1 .f32 :=
  accB c (grid0.coords t) (ms0 t) (hs0 t) (ms1 t) (hs1 t) (ms2 t) (hs2 t) (ms3 t) (hs3 t) scG (Memref.isWhole_whole _) scN (Memref.isWhole_whole _) (notReset_of t h0) (notOut_of t h7) (iblk m c 0 t) (iblk m c 1 t) xs.1 xs.2
/-- After a point with j = 7, over what the point before left. -/
def stepC (c : Dev nD) (t : Fin cfg0.N) (h0 : ¬t.val % 8 = 0) (h7 : t.val % 8 = 7) (xs : Vec F S1x1 .f32 × Vec F S1x1 .f32) : Vec F S1x1 .f32 × Vec F S1x1 .f32 :=
  accC c (grid0.coords t) (ms0 t) (hs0 t) (ms1 t) (hs1 t) (ms2 t) (hs2 t) (ms3 t) (hs3 t) scG (Memref.isWhole_whole _) scN (Memref.isWhole_whole _) (notReset_of t h0) ((hcondOut t).mpr h7) (iblk m c 0 t) (iblk m c 1 t) xs.1 xs.2
/-- The two output blocks after a point with j = 7. -/
def stepOut (c : Dev nD) (t : Fin cfg0.N) (h0 : ¬t.val % 8 = 0) (h7 : t.val % 8 = 7) (xs : Vec F S1x1 .f32 × Vec F S1x1 .f32) : Vec F S8x128 .f32 × Vec F S8x128 .f32 :=
  outC c (grid0.coords t) (ms0 t) (hs0 t) (ms1 t) (hs1 t) (ms2 t) (hs2 t) (ms3 t) (hs3 t) scG (Memref.isWhole_whole _) scN (Memref.isWhole_whole _) (notReset_of t h0) ((hcondOut t).mpr h7) (iblk m c 0 t) (iblk m c 1 t) xs.1 xs.2

/-- THE ACCUMULATORS after the body at position `n`. -/
def accAt (c : Dev nD) : (n : ℕ) → n < cfg0.N → Vec F S1x1 .f32 × Vec F S1x1 .f32
  | 0, hn => stepA m c ⟨0, hn⟩ (Nat.zero_mod _)
  | n + 1, hn =>
    if h0 : (n + 1) % 8 = 0 then stepA m c ⟨n + 1, hn⟩ h0
    else if h7 : (n + 1) % 8 = 7 then stepC m c ⟨n + 1, hn⟩ h0 h7 (accAt c n (Nat.lt_of_succ_lt hn))
    else stepB m c ⟨n + 1, hn⟩ h0 h7 (accAt c n (Nat.lt_of_succ_lt hn))

theorem accAt_A (c : Dev nD) (t : Fin cfg0.N) (h0 : t.val % 8 = 0) : accAt m c t.val t.isLt = stepA m c t h0 := by
  obtain ⟨n, hn⟩ := t
  cases n with
  | zero => exact rfl
  | succ n => exact (dif_pos h0).trans rfl

theorem accAt_B (c : Dev nD) (t : Fin cfg0.N) (h0 : ¬t.val % 8 = 0) (h7 : ¬t.val % 8 = 7) :
    accAt m c t.val t.isLt = stepB m c t h0 h7 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem accAt_C (c : Dev nD) (t : Fin cfg0.N) (h0 : ¬t.val % 8 = 0) (h7 : t.val % 8 = 7) :
    accAt m c t.val t.isLt = stepC m c t h0 h7 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- THE OUTPUT BLOCKS after the body at position `n`: at j = 7 the write-out case's over the accumulators the point before
    left; elsewhere nothing is stored and nothing is written back, and what stands here is not consulted. -/
def outAt (c : Dev nD) (n : ℕ) (hn : n < cfg0.N) : Vec F S8x128 .f32 × Vec F S8x128 .f32 :=
  if h7 : n % 8 = 7 then
    stepOut m c ⟨n, hn⟩ (by show ¬n % 8 = 0; omega) h7 (accAt m c (n - 1) (Nat.lt_of_le_of_lt (Nat.sub_le _ _) hn))
  else (VO2.read (Elt F) VO2.junk, VO3.read (Elt F) VO3.junk)

theorem outAt_C (c : Dev nD) (t : Fin cfg0.N) (h0 : ¬t.val % 8 = 0) (h7 : t.val % 8 = 7) :
    outAt m c t.val t.isLt = stepOut m c t h0 h7 (accAt m c (t.val - 1) (Nat.lt_of_le_of_lt (Nat.sub_le _ _) t.isLt)) := by
  unfold outAt; rw [dif_pos h7]

/-- The region invariant before position `n`: before the first point the class's (the accumulators at anything);
    afterwards the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scG fullShare ((accAt m c n hn).1) ∗ owns (c : Thread nD τ) scN fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scG fullShare ((accAt m c n hn).1) ∗ owns (c : Thread nD τ) scN fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scG fullShare ((accAt m c (n - 1) (by omega)).1) ∗ owns (c : Thread nD τ) scN fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outAt m c t.val t.isLt).1
    | ⟨3, _⟩ => (outAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outAt m c t.val t.isLt).1 := by dsimp only [dats]
theorem after_3 (c : Dev nD) (t : Fin cfg0.N) : (dats m 0 c).after 3 t = (outAt m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in; the invariant
    hands the body the accumulators at what the point before left (at anything at the first point) and takes them back at this
    point's contents; the output blocks are handed back untouched away from j = 7 and with their pieces read back at j = 7. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  by_cases h0 : t.val % 8 = 0
  · have hno : ¬condOut (grid0.coords t) := notOut_of_reset t h0
    rw [Dat.leavesExact_idle (dats m 0 c) 2 t (idle_2 t hno) (noFlush_2 t hno)]
    rw [Dat.leavesExact_idle (dats m 0 c) 3 t (idle_3 t hno) (noFlush_3 t hno)]
    rw [accAt_A m c t h0]
    unfold stepA accA; (try dsimp only)
    by_cases hz : t.val = 0
    · rw [PhiS_castSucc m c t, PhiS_zero m c _ _ hz, PhiA_eq]
      iintro ⟨⟨⟨⟨%d6, HS0⟩, ⟨%d7, HS1⟩⟩, Hg⟩, Ho, ⟨%d0, H0⟩, ⟨%d1, H1⟩, ⟨%d2, H2⟩, ⟨%d3, H3⟩⟩
      iapply ((runA c (grid0.coords t) _ _ _ _ _ _ _ _ _ _ _ _ ((hcondReset t).mpr h0) hno (iblk m c 0 t) (iblk m c 1 t)).2.2 _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_G c _ _ _ _ _ _ _ _ _ _ _ _ _ _ _ _ _)
          · unfold owns; iexists _; isplitr
            swap; · iexact HS1
            ipureintro; exact View.read_writes_of_cover _ _ _ _ _ (coverA_N c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runA c (grid0.coords t) _ _ _ _ _ _ _ _ _ _ _ _ ((hcondReset t).mpr h0) hno (iblk m c 0 t) (iblk m c 1 t)).2.2 _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_G c _ _ _ _ _ _ _ _ _ _ _ _ _ _ _ _ _)
          · unfold owns; iexists _; isplitr
            swap; · iexact HS1
            ipureintro; exact View.read_writes_of_cover _ _ _ _ _ (coverA_N c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    by_cases h7 : t.val % 8 = 7
    · have hout : condOut (grid0.coords t) := (hcondOut t).mpr h7
      rw [show (dats m 0 c).leavesExact 2 t = owns (c : Thread nD τ) (ms2 t) fullShare ((dats m 0 c).after 2 t) from by
        unfold Dat.leavesExact; rw [live_2 t hout], after_2]
      rw [show (dats m 0 c).leavesExact 3 t = owns (c : Thread nD τ) (ms3 t) fullShare ((dats m 0 c).after 3 t) from by
        unfold Dat.leavesExact; rw [live_3 t hout], after_3]
      rw [accAt_C m c t h0 h7, outAt_C m c t h0 h7]
      unfold stepC stepOut accC outC; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runC c (grid0.coords t) _ _ _ _ _ _ _ _ _ _ _ _ (notReset_of t h0) hout (iblk m c 0 t) (iblk m c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverC_G c _ _ _ _ _ _ _ _ _ _ _ _ _ _ _ _ _ _ _)
          · unfold owns; iexists _; isplitr
            swap; · iexact HS1
            ipureintro; exact View.read_writes_of_cover _ _ _ _ _ (coverC_N c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 c _ _ _ _ _ _ _ _ _ _ _ _ _ _ _ _ _ _ _)
      · unfold owns; iexists _; isplitr
        swap; · iexact H3
        ipureintro; exact View.read_writes_of_cover _ _ _ _ _ (coverC_3 c _ _ _ _ _ _ _ _ _ _ _ _ _ _ _ _ _ _ _)
    · have hno : ¬condOut (grid0.coords t) := notOut_of t h7
      rw [Dat.leavesExact_idle (dats m 0 c) 2 t (idle_2 t hno) (noFlush_2 t hno)]
      rw [Dat.leavesExact_idle (dats m 0 c) 3 t (idle_3 t hno) (noFlush_3 t hno)]
      rw [accAt_B m c t h0 h7]
      unfold stepB accB; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runB c (grid0.coords t) _ _ _ _ _ _ _ _ _ _ _ _ (notReset_of t h0) hno (iblk m c 0 t) (iblk m c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB_G c _ _ _ _ _ _ _ _ _ _ _ _ _ _ _ _ _ _ _)
          · unfold owns; iexists _; isplitr
            swap; · iexact HS1
            ipureintro; exact View.read_writes_of_cover _ _ _ _ _ (coverB_N c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, every array of the pipeline at what the library computes from the proof
    data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Value1.lean ====
/-
  What the body's runs found, read back as values (at any float instance): after a point the G accumulator holds
  (what it held, or the reset's zero) + the block's first partial sum, the N accumulator likewise with the second; at
  j = 7 each output block holds its accumulator's entry broadcast; and one trip of the chunk loop yields the two payloads of the
  carried pair and the trip's two loaded chunks.
-/
import proofs.«423638_j28484223107964_3_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

section Cases
variable (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole)

/-- The chunk loop's result on the two blocks: the carried pair after its last trip. -/
abbrev loopRes (x0 : Vec F S4096x1000 .f32) (x1 : Vec F S4096x1 .i32) : FVec F S1x1 .f32 × FVec F S1x1 .f32 :=
  st_k0_t1 (F := F) Variants.none c none i arg2 harg2 arg3 harg3 arg4 harg4 arg5 harg5 arg6 harg6 arg7 harg7 (harg2.unread x0) (harg3.unread x1) (k0_pay3, k0_pay4) k0_t1_loop.trips

theorem accB_eq (hc0 : ¬condReset i) (hc1 : ¬condOut i) (x0 : Vec F S4096x1000 .f32) (x1 : Vec F S4096x1 .i32) (xs0 xs1 : Vec F S1x1 .f32) :
    accB c i arg2 harg2 arg3 harg3 arg4 harg4 arg5 harg5 arg6 harg6 arg7 harg7 hc0 hc1 x0 x1 xs0 xs1
      = (k0_pay8 (loopRes c i arg2 harg2 arg3 harg3 arg4 harg4 arg5 harg5 arg6 harg6 arg7 harg7 x0 x1).1 xs0, k0_pay9 (loopRes c i arg2 harg2 arg3 harg3 arg4 harg4 arg5 harg5 arg6 harg6 arg7 harg7 x0 x1).2 xs1) := by
  unfold accB
  rw [View.read_writes_eq_canon _ _ _ (coverB_G c i arg2 harg2 arg3 harg3 arg4 harg4 arg5 harg5 arg6 harg6 arg7 harg7 hc0 hc1 x0 x1 xs0 xs1), View.read_writes_eq_canon _ _ _ (coverB_N c i arg2 harg2 arg3 harg3 arg4 harg4 arg5 harg5 arg6 harg6 arg7 harg7 hc0 hc1 x0 x1 xs0 xs1)]
  unfold runB
  dsimp only
  sl_unfold_words
  rw [View.canon_unit_zero hz1, View.canon_unit_zero hz1]
  simp only [View.readAt_eq_ld, harg6.read_unread, harg7.read_unread, View.ld_unit_zero (S := S1x1) hz1]

theorem accA_eq (hc0 : condReset i) (hc1 : ¬condOut i) (x0 : Vec F S4096x1000 .f32) (x1 : Vec F S4096x1 .i32) :
    accA c i arg2 harg2 arg3 harg3 arg4 harg4 arg5 harg5 arg6 harg6 arg7 harg7 hc0 hc1 x0 x1
      = (k0_pay8 (loopRes c i arg2 harg2 arg3 harg3 arg4 harg4 arg5 harg5 arg6 harg6 arg7 harg7 x0 x1).1 (k0_pay1 (F := F)), k0_pay9 (loopRes c i arg2 harg2 arg3 harg3 arg4 harg4 arg5 harg5 arg6 harg6 arg7 harg7 x0 x1).2 (k0_pay2 (F := F))) := by
  unfold accA
  rw [View.read_writes_eq_canon _ _ _ (coverA_G c i arg2 harg2 arg3 harg3 arg4 harg4 arg5 harg5 arg6 harg6 arg7 harg7 hc0 hc1 x0 x1), View.read_writes_eq_canon _ _ _ (coverA_N c i arg2 harg2 arg3 harg3 arg4 harg4 arg5 harg5 arg6 harg6 arg7 harg7 hc0 hc1 x0 x1)]
  unfold runA
  dsimp only
  sl_unfold_words
  rw [View.canon_cons_unit_zero (S := S1x1) hz1, View.canon_cons_unit_zero (S := S1x1) hz1,
    View.readCov_unit_zero (S := S1x1) _ hz1, View.readCov_unit_zero (S := S1x1) _ hz1]

theorem accC_eq (hc0 : ¬condReset i) (hc1 : condOut i) (x0 : Vec F S4096x1000 .f32) (x1 : Vec F S4096x1 .i32) (xs0 xs1 : Vec F S1x1 .f32) :
    accC c i arg2 harg2 arg3 harg3 arg4 harg4 arg5 harg5 arg6 harg6 arg7 harg7 hc0 hc1 x0 x1 xs0 xs1
      = (k0_pay8 (loopRes c i arg2 harg2 arg3 harg3 arg4 harg4 arg5 harg5 arg6 harg6 arg7 harg7 x0 x1).1 xs0, k0_pay9 (loopRes c i arg2 harg2 arg3 harg3 arg4 harg4 arg5 harg5 arg6 harg6 arg7 harg7 x0 x1).2 xs1) := by
  unfold accC
  rw [View.read_writes_eq_canon _ _ _ (coverC_G c i arg2 harg2 arg3 harg3 arg4 harg4 arg5 harg5 arg6 harg6 arg7 harg7 hc0 hc1 x0 x1 xs0 xs1), View.read_writes_eq_canon _ _ _ (coverC_N c i arg2 harg2 arg3 harg3 arg4 harg4 arg5 harg5 arg6 harg6 arg7 harg7 hc0 hc1 x0 x1 xs0 xs1)]
  unfold runC
  dsimp only
  sl_unfold_words
  rw [View.canon_unit_zero hz1, View.canon_unit_zero hz1]
  simp only [View.readAt_eq_ld, harg6.read_unread, harg7.read_unread, View.ld_unit_zero (S := S1x1) hz1]

theorem hz8 : (![0, 0] : Fin 2 → Nat) = fun _ => 0 := hz1

theorem outC_eq (hc0 : ¬condReset i) (hc1 : condOut i) (x0 : Vec F S4096x1000 .f32) (x1 : Vec F S4096x1 .i32) (xs0 xs1 : Vec F S1x1 .f32) :
    outC c i arg2 harg2 arg3 harg3 arg4 harg4 arg5 harg5 arg6 harg6 arg7 harg7 hc0 hc1 x0 x1 xs0 xs1
      = (k0_pay10 (k0_pay8 (loopRes c i arg2 harg2 arg3 harg3 arg4 harg4 arg5 harg5 arg6 harg6 arg7 harg7 x0 x1).1 xs0), k0_pay11 (k0_pay9 (loopRes c i arg2 harg2 arg3 harg3 arg4 harg4 arg5 harg5 arg6 harg6 arg7 harg7 x0 x1).2 xs1)) := by
  unfold outC
  rw [View.read_writes_eq_canon _ _ _ (coverC_2 c i arg2 harg2 arg3 harg3 arg4 harg4 arg5 harg5 arg6 harg6 arg7 harg7 hc0 hc1 x0 x1 xs0 xs1), View.read_writes_eq_canon _ _ _ (coverC_3 c i arg2 harg2 arg3 harg3 arg4 harg4 arg5 harg5 arg6 harg6 arg7 harg7 hc0 hc1 x0 x1 xs0 xs1)]
  unfold runC
  dsimp only
  sl_unfold_words
  rw [View.canon_unit_zero (S := S8x128) hz8, View.canon_unit_zero (S := S8x128) hz8,
    View.readCov_unit_zero (S := S1x1) _ hz1, View.readCov_unit_zero (S := S1x1) _ hz1]
  simp only [View.readAt_eq_ld, harg6.read_unread, harg7.read_unread, View.ld_unit_zero (S := S1x1) hz1]

/-- One trip of the chunk loop: the two payloads of the carried pair and the trip's two loaded chunks. -/
theorem tripR_eq (X2 : BufTy.Contents (Elt F) arg2.view.ty) (X3 : BufTy.Contents (Elt F) arg3.view.ty)
    (k : Fin k0_t1_loop.trips) (acc : FVec F S1x1 .f32 × FVec F S1x1 .f32) :
    tripR_k0_t1 (F := F) Variants.none c none i arg2 harg2 arg3 harg3 arg4 harg4 arg5 harg5 arg6 harg6 arg7 harg7 X2 X3 k acc
      = (k0_pay6 acc.1 (View.readAt (Elt F) arg2.view (Rect.unit (s := S4096x1000) (k0_off1 k) S256x1000.size (k0_off1_inb k)).toLoadRect X2)
            (View.readAt (Elt F) arg3.view (Rect.unit (s := S4096x1) (k0_off2 k) S256x1.size (k0_off2_inb k)).toLoadRect X3),
         k0_pay7 acc.2 (View.readAt (Elt F) arg2.view (Rect.unit (s := S4096x1000) (k0_off1 k) S256x1000.size (k0_off1_inb k)).toLoadRect X2)) := by
  unfold tripR_k0_t1 trip_k0_t1
  rfl

end Cases

end Cert.KernelIdeal.Hand

end
-- ==== Proof.Spec.lean ====
/-
  The loss both programs compute, as one function of the two argument arrays over the extended reals.

  For a table x : [65536, 1000] and labels t : [65536]:
    sumsq n = Σ_c x[n,c]²,  norm n = √(sumsq n),
    pick n  = Σ_c (x[n,c] if c = t[n] else 0)      (the entry of row n at its label, as a masked row sum),
    gterm n = pick n / (norm n + ε),   nterm n = (1 − norm n)²,
    loss    = (−Σ_n gterm n) / 65536 + 0.1 · ((Σ_n nterm n) / 65536).
  The four float literals are kept as their words: both programs carry the same words, so they are never evaluated.

  Also here: the masked row sum is the entry at the label when the label is a column (`pick_eq`), and a sum over the 65536
  rows is the sum over 16 blocks of 16 chunks of 256 rows (`sum_rows`): the extended reals are a commutative monoid under
  addition, so regrouping a finite sum needs no finiteness.
-/
import Idealize.ShloMosaic.PureOps.Ideal
import Idealize.ShloMosaic.Lib.ValueIdx

noncomputable section

namespace Cert.Spec

open Idealize.ShloMosaic Idealize.ShloMosaic.ValueIdx

abbrev SX : Shape := ⟨2, ![65536, 1000]⟩
abbrev ST : Shape := ⟨1, ![65536]⟩

/-- The four literals, as the words both programs print. -/
def eps : EReal := Ideal.ofBits .f32 0x3089705F#32
def one : EReal := Ideal.ofBits .f32 0x3F800000#32
def cnt : EReal := Ideal.ofBits .f32 0x47800000#32
def tenth : EReal := Ideal.ofBits .f32 0x3DCCCCCD#32

def sumsq (x : SX.Idx → EReal) (n : Fin 65536) : EReal := ∑ c : Fin 1000, x (ix2 n c) * x (ix2 n c)
def norm (x : SX.Idx → EReal) (n : Fin 65536) : EReal := Ideal.sqrt (sumsq x n)
def pick (x : SX.Idx → EReal) (t : ST.Idx → BitVec 32) (n : Fin 65536) : EReal :=
  ∑ c : Fin 1000, if BitVec.ofNat 32 c.val = t (ix1 n) then x (ix2 n c) else 0
def gterm (x : SX.Idx → EReal) (t : ST.Idx → BitVec 32) (n : Fin 65536) : EReal := Ideal.div (pick x t n) (norm x n + eps)
def nterm (x : SX.Idx → EReal) (n : Fin 65536) : EReal := (one - norm x n) * (one - norm x n)
def loss (x : SX.Idx → EReal) (t : ST.Idx → BitVec 32) : EReal :=
  Ideal.div (-(∑ n : Fin 65536, gterm x t n)) cnt + tenth * Ideal.div (∑ n : Fin 65536, nterm x n) cnt

/-- A 32-bit word whose signed value lies in [0, 1000) is that natural number. -/
theorem toNat_of_range (b : BitVec 32) (h0 : 0 ≤ b.toInt) (h1 : b.toInt < 1000) : b.toNat = b.toInt.toNat := by
  have h := BitVec.toInt_eq_toNat_cond b
  have hb := b.isLt
  split_ifs at h <;> omega

/-- A label that is a column, 0 ≤ z < 1000 read signed, picks that column's entry. -/
theorem pick_eq (x : SX.Idx → EReal) (t : ST.Idx → BitVec 32) (n : Fin 65536)
    (h0 : 0 ≤ (t (ix1 n)).toInt) (hlt : (t (ix1 n)).toInt < 1000) :
    pick x t n = x (ix2 n ⟨(t (ix1 n)).toInt.toNat, by omega⟩) := by
  unfold pick
  have hz : (t (ix1 n)).toInt.toNat < 1000 := by omega
  have hnat := toNat_of_range (t (ix1 n)) h0 hlt
  rw [Finset.sum_eq_single (⟨(t (ix1 n)).toInt.toNat, hz⟩ : Fin 1000)]
  · rw [if_pos]
    apply BitVec.eq_of_toNat_eq
    rw [BitVec.toNat_ofNat, hnat]
    exact Nat.mod_eq_of_lt (by omega)
  · intro c _ hc
    rw [if_neg]
    intro he
    apply hc
    apply Fin.ext
    show c.val = (t (ix1 n)).toInt.toNat
    have h2 := congrArg BitVec.toNat he
    rw [BitVec.toNat_ofNat, Nat.mod_eq_of_lt (by have := c.isLt; omega)] at h2
    omega
  · intro h; exact absurd (Finset.mem_univ _) h

/-- Row 4096 b + 256 k + r: row r of chunk k of block b. -/
def row (b k : Fin 16) (r : Fin 256) : Fin 65536 := ⟨4096 * b.val + 256 * k.val + r.val, by omega⟩

/-- A sum over the rows, block by block and chunk by chunk. -/
theorem sum_rows (f : Fin 65536 → EReal) :
    ∑ b : Fin 16, ∑ k : Fin 16, ∑ r : Fin 256, f (row b k r) = ∑ n : Fin 65536, f n := by
  have e1 : ∀ g : Fin (16 * 4096) → EReal, ∑ n : Fin (16 * 4096), g n = ∑ b : Fin 16, ∑ q : Fin 4096, g (finProdFinEquiv (b, q)) := by
    intro g
    rw [← Fintype.sum_prod_type', ← Equiv.sum_comp finProdFinEquiv g]
  have e2 : ∀ g : Fin (16 * 256) → EReal, ∑ q : Fin (16 * 256), g q = ∑ k : Fin 16, ∑ r : Fin 256, g (finProdFinEquiv (k, r)) := by
    intro g
    rw [← Fintype.sum_prod_type', ← Equiv.sum_comp finProdFinEquiv g]
  symm
  rw [show (∑ n : Fin 65536, f n) = ∑ n : Fin (16 * 4096), f n from rfl, e1]
  refine Finset.sum_congr rfl fun b _ => ?_
  rw [show (∑ q : Fin 4096, f (finProdFinEquiv (b, q))) = ∑ q : Fin (16 * 256), f (finProdFinEquiv (b, q)) from rfl, e2]
  refine Finset.sum_congr rfl fun k _ => Finset.sum_congr rfl fun r _ => ?_
  congr 1
  apply Fin.ext
  simp only [finProdFinEquiv_apply_val, row]
  omega

end Cert.Spec

end
-- ==== Proof.LibKeepdims.lean ====
/-
  Column vectors read at an index. A "keepdims" reduction leaves a column `[a, 1]`; what is read of it
  downstream is always its row coordinate. Three layout operations on columns, each read at an index written
  by coordinates:
    * a column `[a, 1]` flattened to `[a]` reads at `i` the column's entry `(i, 0)`;
    * a vector `[a]` stood up as a column `[a, 1]` reads at `(i, u)` the vector's entry `i`;
    * a column `[a, 1]` broadcast along the lanes to `[a, b]` reads at `(p, c)` the column's entry `(p, 0)`.
  In each the two row-major positions agree because the unit axis contributes nothing to the position.
-/
import Idealize.ShloMosaic.Lib.Pipeline.Value
import Idealize.ShloMosaic.Lib.ValueIdx

namespace Idealize.ShloMosaic.ValueIdx

open Idealize.ShloMosaic

variable {α : Type}

/-- A column `[a, 1]` cast to the vector `[a]` reads, at `i`, the column at `(i, 0)`: the row-major position of
    `(i, 0)` in `[a, 1]` is `i · 1 + 0 = i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to the column `[a, 1]` reads, at `(i, u)`, the vector at `i`, whatever the unit
    coordinate `u` (which is `0`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the lane
    coordinate `c` is dropped on the unit axis, the row coordinate kept (and if `a` itself is `1` the row
    coordinate is `0` anyway). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KI.Pay.lean ====
/-
  The kernel body's arithmetic at the ideal instance, read at an index.

  For a 256x1000 chunk xc and its 256x1 label column tc the body computes, per row r,
    norm r = √(Σ_c xc[r,c]·xc[r,c])                     (a row reduction, stood up as a column, then a square root),
    pick r = Σ_c (xc[r,c] if c = tc[r,0] else 0)          (the column number compared with the label broadcast along the row),
  and adds to its two running 1x1 sums the column sums Σ_r pick r / (norm r + ε) and Σ_r (1 − norm r)².
  Each step is read at an index written by coordinates: a reduction over one axis is the sum over that axis's
  coordinates with the coordinate inserted, a vector stood up as a column reads its row coordinate, a column
  broadcast along the row reads its row coordinate, the column-number vector reads its column coordinate, and the
  zero word reads as 0 so that the reductions start from nothing. The two literals ε and 1 stay words.
-/
import proofs.«423638_j28484223107964_3_alg».proof.Proof.Gen.KernelIdeal.Skeleton
import proofs.«423638_j28484223107964_3_alg».proof.Proof.Spec
import proofs.«423638_j28484223107964_3_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx

/-- The norm of row `r` of a 256-row chunk. -/
def chunkNorm (xc : Vec Ideal S256x1000 .f32) (r : Fin 256) : EReal :=
  Ideal.sqrt (∑ c : Fin 1000, xc (ix2 r c) * xc (ix2 r c))
/-- The entry of row `r` at its label, as the masked row sum the body computes. -/
def chunkPick (xc : Vec Ideal S256x1000 .f32) (tc : Vec Ideal S256x1 .i32) (r : Fin 256) : EReal :=
  ∑ c : Fin 1000, if BitVec.ofNat 32 c.val = tc (ix2 r (0 : Fin 1)) then xc (ix2 r c) else 0

/-! ## Reading one step at an index -/

/-- Over row `r` of the reduced vector, the source index with column `c` inserted is `(r, c)`. -/
theorem lift_cols (h : S256x1000.Reduces [1] S256) (r : Fin 256) (c : Fin 1000) :
    h.lift (ix1 r) c = ix2 r c := by
  funext a
  match a with
  | ⟨0, _⟩ => exact Fin.ext rfl
  | ⟨1, _⟩ => exact Fin.ext rfl

/-- Over the one entry of the reduced column, the source index with row `r` inserted is `(r, u)`. -/
theorem lift_rows (h : S256x1.Reduces [0] S1) (u : Fin 1) (r : Fin 256) :
    h.lift (ix1 u) r = ix2 r u := by
  funext a
  match a with
  | ⟨0, _⟩ => exact Fin.ext rfl
  | ⟨1, _⟩ => exact Fin.ext rfl

/-- A row reduction from the zero word, stood up as a column, reads at `(r, u)` the sum of row `r`. -/
theorem rowSum_col (v : FVec Ideal S256x1000 .f32) (h : S256x1000.Reduces [1] S256) (hc : S256.ShapeCasts S256x1)
    (hφ : FKind.Formats FTy.f32) (hacc : (0x00000000#32 : BitVec FTy.f32.bits) = FKind.add.neutral .f32 hφ)
    (r : Fin 256) (u : Fin 1) :
    shapeCast S256x1 (multiReduction .add [1] S256 v 0x00000000#32 h hφ hacc) hc (ix2 r u)
      = ∑ c : Fin 1000, v (ix2 r c) := by
  rw [shapeCast_a_a1_apply, Ideal.multiReduction_add_single]
  exact Finset.sum_congr rfl fun c _ => congrArg v (lift_cols h r c)

/-- A column reduction from the zero word, stood up as the 1x1 entry, reads there the sum down the column. -/
theorem colSum_entry (v : FVec Ideal S256x1 .f32) (h : S256x1.Reduces [0] S1) (hc : S1.ShapeCasts S1x1)
    (hφ : FKind.Formats FTy.f32) (hacc : (0x00000000#32 : BitVec FTy.f32.bits) = FKind.add.neutral .f32 hφ)
    (p q : Fin 1) :
    shapeCast S1x1 (multiReduction .add [0] S1 v 0x00000000#32 h hφ hacc) hc (ix2 p q)
      = ∑ r : Fin 256, v (ix2 r (0 : Fin 1)) := by
  rw [shapeCast_a_a1_apply, Ideal.multiReduction_add_single]
  refine Finset.sum_congr rfl fun r _ => congrArg v ?_
  rw [lift_rows h p r]
  have hp : p = 0 := Subsingleton.elim _ _
  rw [hp]

/-- Choosing by a comparison for equality is choosing by the equality. -/
theorem select_cmpi_eq {α : Type} (a b : BitVec 32) (x y : α) :
    Scalar.select (IntOp.cmpi .eq a b) x y = if a = b then x else y := by
  have hiff : IntOp.cmpi .eq a b = 1 ↔ a = b := by
    show BitVec.ofBool (a == b) = 1 ↔ a = b
    cases hb : (a == b)
    · have hne : ¬a = b := by simpa using hb
      exact ⟨fun h => absurd h (by decide), fun h => absurd h hne⟩
    · exact ⟨fun _ => by simpa using hb, fun _ => rfl⟩
  unfold Scalar.select
  by_cases hab : a = b
  · rw [if_pos hab, if_pos (hiff.2 hab)]
  · rw [if_neg hab, if_neg (fun h => hab (hiff.1 h))]

/-- The square root of a vector reads pointwise. -/
theorem sqrt_apply {s : Shape} (a : FVec Ideal s .f32) (i : s.Idx) : sqrt a i = Ideal.sqrt (a i) := rfl

/-- The column-number vector compared with the label column broadcast along the row, choosing the chunk's entry
    or the zero word: at `(r, c)` the entry if `c` is row `r`'s label, else 0. -/
theorem masked_apply (xc : Vec Ideal S256x1000 .f32) (tc : Vec Ideal S256x1 .i32)
    (h1 : S256x1000.Iotas .tc 32 [1]) (h2 : S256x1.ShapeCasts S256x1) (h3 : S256x1.Broadcasts S256x1000)
    (r : Fin 256) (c : Fin 1000) :
    select (cmpi .eq (iota .tc S256x1000 32 [1] h1) (broadcastTo S256x1000 (shapeCast S256x1 tc h2) h3)) xc
        (broadcast S256x1000 (Scalar.ofBits (F := Ideal) .f32 0x00000000#32)) (ix2 r c)
      = if BitVec.ofNat 32 c.val = tc (ix2 r (0 : Fin 1)) then xc (ix2 r c) else 0 := by
  rw [select_apply, broadcast_apply]
  show Scalar.select (IntOp.cmpi .eq (iota .tc S256x1000 32 [1] h1 (ix2 r c))
      (broadcastTo S256x1000 (shapeCast S256x1 tc h2) h3 (ix2 r c))) (xc (ix2 r c)) (Ideal.ofBits .f32 0x00000000#32) = _
  rw [iota_single_apply, broadcastTo_a1_ab_apply, shapeCast_self, Ideal.ofBits_zero_f32, select_cmpi_eq]

/-- The first payload the two sums read: the chunk's row norms, as a column. -/
theorem pay5_eq (xc : Vec Ideal S256x1000 .f32) (r : Fin 256) (u : Fin 1) :
    k0_pay5 (F := Ideal) xc (ix2 r u) = chunkNorm xc r := by
  unfold k0_pay5 chunkNorm
  dsimp only
  rw [sqrt_apply]
  refine congrArg Ideal.sqrt ((rowSum_col _ _ _ _ _ r u).trans ?_)
  rfl

theorem pay6_eq (acc : FVec Ideal S1x1 .f32) (xc : Vec Ideal S256x1000 .f32) (tc : Vec Ideal S256x1 .i32) (y : S1x1.Idx) :
    k0_pay6 (F := Ideal) acc xc tc y
      = acc y + ∑ r : Fin 256, Ideal.div (chunkPick xc tc r) (chunkNorm xc r + Cert.Spec.eps) := by
  obtain ⟨p, q, rfl⟩ : ∃ (p : Fin 1) (q : Fin 1), y = ix2 p q := ⟨y 0, y 1, eq_ix2 y⟩
  unfold k0_pay6
  dsimp only
  rw [addf_apply]
  refine congrArg (acc (ix2 p q) + ·) ((colSum_entry _ _ _ _ _ p q).trans ?_)
  refine Finset.sum_congr rfl fun r _ => ?_
  rw [divf_apply]
  refine congrArg₂ Ideal.div ((rowSum_col _ _ _ _ _ r 0).trans ?_) ?_
  · exact Finset.sum_congr rfl fun c _ => masked_apply xc tc _ _ _ r c
  · rw [addf_apply, pay5_eq, broadcast_apply]
    rfl

theorem pay7_eq (acc : FVec Ideal S1x1 .f32) (xc : Vec Ideal S256x1000 .f32) (y : S1x1.Idx) :
    k0_pay7 (F := Ideal) acc xc y
      = acc y + ∑ r : Fin 256, (Cert.Spec.one - chunkNorm xc r) * (Cert.Spec.one - chunkNorm xc r) := by
  obtain ⟨p, q, rfl⟩ : ∃ (p : Fin 1) (q : Fin 1), y = ix2 p q := ⟨y 0, y 1, eq_ix2 y⟩
  unfold k0_pay7
  dsimp only
  rw [addf_apply]
  refine congrArg (acc (ix2 p q) + ·) ((colSum_entry _ _ _ _ _ p q).trans ?_)
  refine Finset.sum_congr rfl fun r _ => ?_
  rw [mulf_apply, subf_apply, pay5_eq, broadcast_apply]
  rfl

/-! ## The zero initial values, the final sums, and the broadcast of the 1x1 results -/

theorem pay1_eq (y : S1x1.Idx) : (k0_pay1 (F := Ideal)) y = 0 := by
  unfold k0_pay1
  rw [shapeCast_self, broadcast_apply]
  exact Ideal.ofBits_zero_f32
theorem pay2_eq (y : S1x1.Idx) : (k0_pay2 (F := Ideal)) y = 0 := by
  unfold k0_pay2
  rw [shapeCast_self, broadcast_apply]
  exact Ideal.ofBits_zero_f32
theorem pay3_eq (y : S1x1.Idx) : (k0_pay3 (F := Ideal)) y = 0 := by
  unfold k0_pay3
  rw [broadcast_apply]
  exact Ideal.ofBits_zero_f32
theorem pay4_eq (y : S1x1.Idx) : (k0_pay4 (F := Ideal)) y = 0 := by
  unfold k0_pay4
  rw [broadcast_apply]
  exact Ideal.ofBits_zero_f32

theorem pay8_eq (v6 : FVec Ideal S1x1 .f32) (v7 : Vec Ideal S1x1 .f32) (y : S1x1.Idx) :
    k0_pay8 (F := Ideal) v6 v7 y = v7 y + v6 y := by
  unfold k0_pay8
  rw [shapeCast_self]
  rfl
theorem pay9_eq (v6 : FVec Ideal S1x1 .f32) (v12 : Vec Ideal S1x1 .f32) (y : S1x1.Idx) :
    k0_pay9 (F := Ideal) v6 v12 y = v12 y + v6 y := by
  unfold k0_pay9
  rw [shapeCast_self]
  rfl

/-- A 1x1 vector broadcast to 8x128 reads everywhere its one entry: both of its axes are unit axes. -/
theorem broadcastTo_11_apply (v : S1x1.Idx → EReal) (h : S1x1.Broadcasts S8x128) (j : S8x128.Idx) :
    broadcastTo S8x128 v h j = v (ix2 (0 : Fin 1) (0 : Fin 1)) := by
  refine broadcastTo_apply v h j (ix2 (0 : Fin 1) (0 : Fin 1)) fun ax => ?_
  match ax with
  | ⟨0, _⟩ =>
    show 0 = if (1 : ℕ) = 1 then 0 else _
    rw [if_pos rfl]
  | ⟨1, _⟩ =>
    show 0 = if (1 : ℕ) = 1 then 0 else _
    rw [if_pos rfl]

theorem pay10_eq (v : Vec Ideal S1x1 .f32) (j : S8x128.Idx) :
    k0_pay10 (F := Ideal) v j = v (ix2 (0 : Fin 1) (0 : Fin 1)) := by
  unfold k0_pay10
  rw [shapeCast_self]
  exact broadcastTo_11_apply v _ j
theorem pay11_eq (v : Vec Ideal S1x1 .f32) (j : S8x128.Idx) :
    k0_pay11 (F := Ideal) v j = v (ix2 (0 : Fin 1) (0 : Fin 1)) := by
  unfold k0_pay11
  rw [shapeCast_self]
  exact broadcastTo_11_apply v _ j

end Cert.KernelIdeal.Pay

end
-- ==== Proof.KI.Value2.lean ====
/-
  At the ideal instance. The chunk loop's result is the sum over its sixteen trips of each chunk's two partial sums (the carried
  pair starts at zero and each trip adds the chunk's sums: induction on the trip). So after the point t = 8 p + j the G
  accumulator holds the sum over j' ≤ j of the blocks' first partial sums of the points 8 p + j' (reset at j = 0, then one block
  more per point: induction on the point), the N accumulator the same with the second partial sums; and at j = 7 each output
  block holds its accumulator's entry at every index.
-/
import proofs.«423638_j28484223107964_3_alg».proof.Proof.KI.Value1
import proofs.«423638_j28484223107964_3_alg».proof.Proof.KI.Pay
import proofs.«423638_j28484223107964_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Idealize.ShloMosaic.ValueIdx

variable (m : (ℓ : Loc nD τ sig) → Buf (Elt Ideal) ℓ)

theorem trips_eq : k0_t1_loop.trips = 16 := by decide +kernel

/-! ## The chunk loop -/

/-- Chunk k of a block of the table, and of the block's label column: rows 256 k … 256 k + 255. -/
abbrev chX (xb : Vec Ideal S4096x1000 .f32) (k : Fin k0_t1_loop.trips) : Vec Ideal S256x1000 .f32 :=
  View.ld xb (Rect.unit (s := S4096x1000) (k0_off1 k) S256x1000.size (k0_off1_inb k))
abbrev chT (tb : Vec Ideal S4096x1 .i32) (k : Fin k0_t1_loop.trips) : Vec Ideal S256x1 .i32 :=
  View.ld tb (Rect.unit (s := S4096x1) (k0_off2 k) S256x1.size (k0_off2_inb k))

/-- A chunk's two partial sums. -/
def chunkG (xb : Vec Ideal S4096x1000 .f32) (tb : Vec Ideal S4096x1 .i32) (k : Fin k0_t1_loop.trips) : EReal :=
  ∑ r : Fin 256, Ideal.div (chunkPick (chX xb k) (chT tb k) r) (chunkNorm (chX xb k) r + Cert.Spec.eps)
def chunkN (xb : Vec Ideal S4096x1000 .f32) (k : Fin k0_t1_loop.trips) : EReal :=
  ∑ r : Fin 256, (Cert.Spec.one - chunkNorm (chX xb k) r) * (Cert.Spec.one - chunkNorm (chX xb k) r)
/-- A block's two partial sums. -/
def blockG (xb : Vec Ideal S4096x1000 .f32) (tb : Vec Ideal S4096x1 .i32) : EReal := ∑ k : Fin k0_t1_loop.trips, chunkG xb tb k
def blockN (xb : Vec Ideal S4096x1000 .f32) : EReal := ∑ k : Fin k0_t1_loop.trips, chunkN xb k

section Loop
variable (c : Dev nD) (i : grid0.Coords) (arg2 : Memref sig .tc .vmem S4096x1000 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole)

/-- The carried pair before trip n: the sums of the chunks before it. -/
theorem st_eq (xb : Vec Ideal S4096x1000 .f32) (tb : Vec Ideal S4096x1 .i32) (y : S1x1.Idx) :
    ∀ (n : ℕ) (hn : n ≤ k0_t1_loop.trips),
      (st_k0_t1 (F := Ideal) Variants.none c none i arg2 harg2 arg3 harg3 arg4 harg4 arg5 harg5 arg6 harg6 arg7 harg7 (harg2.unread xb) (harg3.unread tb) (k0_pay3, k0_pay4) n).1 y
          = ∑ k : Fin n, chunkG xb tb ⟨k.val, lt_of_lt_of_le k.isLt hn⟩
      ∧ (st_k0_t1 (F := Ideal) Variants.none c none i arg2 harg2 arg3 harg3 arg4 harg4 arg5 harg5 arg6 harg6 arg7 harg7 (harg2.unread xb) (harg3.unread tb) (k0_pay3, k0_pay4) n).2 y
          = ∑ k : Fin n, chunkN xb ⟨k.val, lt_of_lt_of_le k.isLt hn⟩
  | 0, _ => by
    rw [st_k0_t1_zero]
    exact ⟨(pay3_eq y).trans (by simp), (pay4_eq y).trans (by simp)⟩
  | n + 1, hn => by
    have ih := st_eq xb tb y n (Nat.le_of_succ_le hn)
    have hs := st_k0_t1_succ (F := Ideal) Variants.none c none i arg2 harg2 arg3 harg3 arg4 harg4 arg5 harg5 arg6 harg6 arg7 harg7 (harg2.unread xb) (harg3.unread tb) (k0_pay3, k0_pay4) ⟨n, hn⟩
    rw [show (⟨n, hn⟩ : Fin k0_t1_loop.trips).val + 1 = n + 1 from rfl] at hs
    rw [hs, tripR_eq]
    simp only [View.readAt_eq_ld, harg2.read_unread, harg3.read_unread]
    constructor
    · rw [pay6_eq, ih.1]
      exact (Fin.sum_univ_castSucc (fun k : Fin (n + 1) => chunkG xb tb ⟨k.val, lt_of_lt_of_le k.isLt hn⟩)).symm
    · rw [pay7_eq, ih.2]
      exact (Fin.sum_univ_castSucc (fun k : Fin (n + 1) => chunkN xb ⟨k.val, lt_of_lt_of_le k.isLt hn⟩)).symm

theorem loopRes_eq (xb : Vec Ideal S4096x1000 .f32) (tb : Vec Ideal S4096x1 .i32) (y : S1x1.Idx) :
    (loopRes (F := Ideal) c i arg2 harg2 arg3 harg3 arg4 harg4 arg5 harg5 arg6 harg6 arg7 harg7 xb tb).1 y = blockG xb tb ∧ (loopRes (F := Ideal) c i arg2 harg2 arg3 harg3 arg4 harg4 arg5 harg5 arg6 harg6 arg7 harg7 xb tb).2 y = blockN xb :=
  st_eq c i arg2 harg2 arg3 harg3 arg4 harg4 arg5 harg5 arg6 harg6 arg7 harg7 xb tb y k0_t1_loop.trips le_rfl

end Loop

/-! ## The accumulators point by point -/

/-- The two input blocks at a point, named at their literal types. -/
abbrev xblk (c : Dev nD) (t : Fin cfg0.N) : Vec Ideal S4096x1000 .f32 := iblk m c 0 t
abbrev tblk (c : Dev nD) (t : Fin cfg0.N) : Vec Ideal S4096x1 .i32 := iblk m c 1 t

/-- The running sum along a core's eight points: restarted where j = 0. -/
def pS (b : ℕ → EReal) : ℕ → EReal
  | 0 => b 0
  | n + 1 => if (n + 1) % 8 = 0 then b (n + 1) else pS b n + b (n + 1)

/-- The blocks' two partial sums by position. -/
def bG (c : Dev nD) (n : ℕ) : EReal := if h : n < cfg0.N then blockG (xblk m c ⟨n, h⟩) (tblk m c ⟨n, h⟩) else 0
def bN (c : Dev nD) (n : ℕ) : EReal := if h : n < cfg0.N then blockN (xblk m c ⟨n, h⟩) else 0

theorem accAt_eq (c : Dev nD) (y : S1x1.Idx) : ∀ (n : ℕ) (hn : n < cfg0.N),
    (accAt m c n hn).1 y = pS (bG m c) n ∧ (accAt m c n hn).2 y = pS (bN m c) n
  | 0, hn => by
    rw [accAt_A m c ⟨0, hn⟩ (Nat.zero_mod _)]
    unfold stepA
    rw [accA_eq]
    dsimp only
    rw [pay8_eq, pay9_eq, pay1_eq, pay2_eq, zero_add, zero_add, (loopRes_eq _ _ _ _ _ _ _ _ _ _ _ _ _ _ _ _ y).1, (loopRes_eq _ _ _ _ _ _ _ _ _ _ _ _ _ _ _ _ y).2]
    constructor <;> (simp only [pS, bG, bN, dif_pos hn]; try rfl)
  | n + 1, hn => by
    have ih := accAt_eq c y n (Nat.lt_of_succ_lt hn)
    by_cases h0 : (n + 1) % 8 = 0
    · rw [accAt_A m c ⟨n + 1, hn⟩ h0]
      unfold stepA
      rw [accA_eq]
      dsimp only
      rw [pay8_eq, pay9_eq, pay1_eq, pay2_eq, zero_add, zero_add, (loopRes_eq _ _ _ _ _ _ _ _ _ _ _ _ _ _ _ _ y).1, (loopRes_eq _ _ _ _ _ _ _ _ _ _ _ _ _ _ _ _ y).2]
      constructor <;> (simp only [pS, bG, bN, dif_pos hn, if_pos h0]; try rfl)
    · by_cases h7 : (n + 1) % 8 = 7
      · rw [accAt_C m c ⟨n + 1, hn⟩ h0 h7]
        unfold stepC
        rw [accC_eq]
        dsimp only
        rw [pay8_eq, pay9_eq, (loopRes_eq _ _ _ _ _ _ _ _ _ _ _ _ _ _ _ _ y).1, (loopRes_eq _ _ _ _ _ _ _ _ _ _ _ _ _ _ _ _ y).2]
        simp only [pS, bG, bN, dif_pos hn, if_neg h0, Nat.add_sub_cancel]
        exact ⟨by rw [← ih.1], by rw [← ih.2]⟩
      · rw [accAt_B m c ⟨n + 1, hn⟩ h0 h7]
        unfold stepB
        rw [accB_eq]
        dsimp only
        rw [pay8_eq, pay9_eq, (loopRes_eq _ _ _ _ _ _ _ _ _ _ _ _ _ _ _ _ y).1, (loopRes_eq _ _ _ _ _ _ _ _ _ _ _ _ _ _ _ _ y).2]
        simp only [pS, bG, bN, dif_pos hn, if_neg h0, Nat.add_sub_cancel]
        exact ⟨by rw [← ih.1], by rw [← ih.2]⟩

/-- At a point with j = 7 each output block holds, at every index, its accumulator's entry after that point. -/
theorem outAt_eq (c : Dev nD) (t : Fin cfg0.N) (h7 : t.val % 8 = 7) (j : S8x128.Idx) :
    (outAt m c t.val t.isLt).1 j = pS (bG m c) t.val ∧ (outAt m c t.val t.isLt).2 j = pS (bN m c) t.val := by
  have h0 : ¬t.val % 8 = 0 := by omega
  have hacc := accAt_eq m c (ix2 (0 : Fin 1) (0 : Fin 1)) t.val t.isLt
  rw [accAt_C m c t h0 h7] at hacc
  unfold stepC at hacc
  rw [accC_eq] at hacc
  rw [outAt_C m c t h0 h7]
  unfold stepOut
  rw [outC_eq]
  dsimp only at hacc ⊢
  rw [pay10_eq, pay11_eq]
  exact hacc

end Cert.KernelIdeal.Hand

end
-- ==== Proof.KI.Value3.lean ====
/-
  A point's blocks as rows of the arrays. Point t stages rows 4096 t … 4096 t + 4095 of the table and of the label column, and
  trip k of the chunk loop reads rows 256 k … 256 k + 255 of the block: row r of chunk k of point t is row 4096 t + 256 k + r.
  The label column is the labels clamped into [0, 999] and stood up as a column; with every label in [0, 1000) the clamp is the
  identity. So a block's two partial sums are the sums over its rows of the specification's two row terms.
-/
import proofs.«423638_j28484223107964_3_alg».proof.Proof.KI.Value2
import proofs.«423638_j28484223107964_3_alg».proof.Proof.LibKeepdims
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Idealize.ShloMosaic.ValueIdx Idealize.ShloMosaic.StableHlo

variable (m : (ℓ : Loc nD τ sig) → Buf (Elt Ideal) ℓ)

/-- The two input windows' block index at point t is (t, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The table and the label column as the region finds them. -/
abbrev xarr (c : Dev nD) : Vec Ideal S65536x1000 .f32 := V m c main_arg0
abbrev tarr (c : Dev nD) : Vec Ideal S65536x1 .i32 := V m c main_v1

theorem xblk_apply (c : Dev nD) (t : Fin cfg0.N) (q : Fin 4096) (cc : Fin 1000) (h : 4096 * t.val + q.val < 65536) :
    xblk m c t (ix2 q cc) = xarr m c (ix2 ⟨4096 * t.val + q.val, h⟩ cc) := by
  show ((cfg0.win 0).blk t).view.read (Elt Ideal) (V m c (Pipeline.arrRef spec0 0)) (ix2 q cc) = _
  rw [View.read_apply]
  show V m c main_arg0 _ = V m c main_arg0 _
  congr 1
  funext a
  apply Fin.ext
  match a with
  | ⟨0, _⟩ => show win0_0.index t (0 : Fin 2) * 4096 + 1 * q.val = 4096 * t.val + q.val; rw [(idx_in t).1]; omega
  | ⟨1, _⟩ => show win0_0.index t (1 : Fin 2) * 1000 + 1 * cc.val = cc.val; rw [(idx_in t).2.1]; omega

theorem tblk_apply (c : Dev nD) (t : Fin cfg0.N) (q : Fin 4096) (u : Fin 1) (h : 4096 * t.val + q.val < 65536) :
    tblk m c t (ix2 q u) = tarr m c (ix2 ⟨4096 * t.val + q.val, h⟩ (0 : Fin 1)) := by
  show ((cfg0.win 1).blk t).view.read (Elt Ideal) (V m c (Pipeline.arrRef spec0 1)) (ix2 q u) = _
  rw [View.read_apply]
  show V m c main_v1 _ = V m c main_v1 _
  congr 1
  funext a
  apply Fin.ext
  have hu : u.val = 0 := by omega
  match a with
  | ⟨0, _⟩ => show win0_1.index t (0 : Fin 2) * 4096 + 1 * q.val = 4096 * t.val + q.val; rw [(idx_in t).2.2.1]; omega
  | ⟨1, _⟩ => show win0_1.index t (1 : Fin 2) * 1 + 1 * u.val = 0; rw [(idx_in t).2.2.2]; omega

theorem chX_apply (xb : Vec Ideal S4096x1000 .f32) (k : Fin k0_t1_loop.trips) (r : Fin 256) (cc : Fin 1000) (h : 256 * k.val + r.val < 4096) :
    chX xb k (ix2 r cc) = xb (ix2 ⟨256 * k.val + r.val, h⟩ cc) := by
  show xb ((Rect.unit (s := S4096x1000) (k0_off1 k) S256x1000.size (k0_off1_inb k)).idx (ix2 r cc)) = _
  congr 1
  funext a
  apply Fin.ext
  match a with
  | ⟨0, _⟩ => show (k0_off1 k) (0 : Fin 2) + 1 * r.val = 256 * k.val + r.val; rw [k0_off1_eq k]; show 256 * k.val + 1 * r.val = _; omega
  | ⟨1, _⟩ => show (k0_off1 k) (1 : Fin 2) + 1 * cc.val = cc.val; rw [k0_off1_eq k]; show 0 + 1 * cc.val = _; omega

theorem chT_apply (tb : Vec Ideal S4096x1 .i32) (k : Fin k0_t1_loop.trips) (r : Fin 256) (u : Fin 1) (h : 256 * k.val + r.val < 4096) :
    chT tb k (ix2 r u) = tb (ix2 ⟨256 * k.val + r.val, h⟩ u) := by
  show tb ((Rect.unit (s := S4096x1) (k0_off2 k) S256x1.size (k0_off2_inb k)).idx (ix2 r u)) = _
  congr 1
  funext a
  apply Fin.ext
  match a with
  | ⟨0, _⟩ => show (k0_off2 k) (0 : Fin 2) + 1 * r.val = 256 * k.val + r.val; rw [k0_off2_eq k]; show 256 * k.val + 1 * r.val = _; omega
  | ⟨1, _⟩ => show (k0_off2 k) (1 : Fin 2) + 1 * u.val = u.val; rw [k0_off2_eq k]; show 0 + 1 * u.val = _; omega

/-! ## The label column -/

/-- The label column is the labels clamped into [0, 999], stood up as a column. -/
theorem tarr_eq (c : Dev nD) :
    tarr m c = shapeCast S65536x1 (minsi (broadcastInDim S65536 ![] bcast_S_S65536 (constantI S_ 32 999#32))
        (maxsi (broadcastInDim S65536 ![] bcast_S_S65536 (constantI S_ 32 0#32)) (m ((c : Thread nD τ).loc main_arg1))))
      shapeCasts_S65536_S65536x1 := by
  show (V m c main_v1 : S65536x1.Idx → BitVec 32) = _
  dsimp only [Gen.V, Gen.V0]
  simp only [Gen.hostOps0, Gen.hostOps0_1, Gen.hostOps0_2, List.flatten_cons, List.flatten_nil, List.append_nil, List.cons_append, List.nil_append]
  after_results
  rfl

/-- A word whose signed value lies in [0, 1000) is its own clamp into [0, 999]. -/
theorem clamp_id (b : BitVec 32) (h0 : 0 ≤ b.toInt) (h1 : b.toInt < 1000) :
    IntOp.minsi 999#32 (IntOp.maxsi 0#32 b) = b := by
  have e0 : (0#32 : BitVec 32).toInt = 0 := by decide
  have e9 : (999#32 : BitVec 32).toInt = 999 := by decide
  have hs0 : ¬ (b.slt 0#32 = true) := fun h => by have := BitVec.slt_iff_toInt_lt.mp h; omega
  have hs9 : ¬ ((999#32 : BitVec 32).slt b = true) := fun h => by have := BitVec.slt_iff_toInt_lt.mp h; omega
  unfold IntOp.minsi IntOp.maxsi
  rw [if_neg hs0, if_neg hs9]

/-- With every label in [0, 1000) the label column holds the labels. -/
theorem tarr_apply (c : Dev nD) (n : Fin 65536)
    (h0 : 0 ≤ (m ((c : Thread nD τ).loc main_arg1) (ix1 n)).toInt) (h1 : (m ((c : Thread nD τ).loc main_arg1) (ix1 n)).toInt < 1000) :
    tarr m c (ix2 n (0 : Fin 1)) = m ((c : Thread nD τ).loc main_arg1) (ix1 n) := by
  rw [tarr_eq, shapeCast_a_a1_apply]
  show IntOp.minsi 999#32 (IntOp.maxsi 0#32 (m ((c : Thread nD τ).loc main_arg1) (ix1 n))) = _
  exact clamp_id _ h0 h1

end Cert.KernelIdeal.Hand

end
-- ==== Proof.KI.Value4.lean ====
/-
  A block's two partial sums are the sums, over its sixteen chunks of 256 rows, of the specification's two row terms; and the
  running sums at the two write-out points (j = 7 on either core) together are the sums over all sixteen blocks: so over all
  65536 rows.
-/
import proofs.«423638_j28484223107964_3_alg».proof.Proof.KI.Value3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Idealize.ShloMosaic.ValueIdx

variable (m : (ℓ : Loc nD τ sig) → Buf (Elt Ideal) ℓ)

theorem N_eq : cfg0.N = 16 := N_0

/-- Row r of chunk k of point t. -/
def rowOf (t : Fin cfg0.N) (k : Fin k0_t1_loop.trips) (r : Fin 256) : Fin 65536 :=
  ⟨4096 * t.val + (256 * k.val + r.val), by have ht : t.val < 16 := lt_of_lt_of_eq t.isLt N_eq; have hk : k.val < 16 := lt_of_lt_of_eq k.isLt trips_eq; omega⟩

theorem sum_rowOf (f : Fin 65536 → EReal) :
    ∑ t : Fin cfg0.N, ∑ k : Fin k0_t1_loop.trips, ∑ r : Fin 256, f (rowOf t k r) = ∑ n : Fin 65536, f n := by
  rw [← Cert.Spec.sum_rows f]
  refine Fintype.sum_equiv (finCongr N_eq) _ _ fun t => ?_
  refine Fintype.sum_equiv (finCongr trips_eq) _ _ fun k => ?_
  refine Finset.sum_congr rfl fun r _ => ?_
  congr 1
  apply Fin.ext
  show 4096 * t.val + (256 * k.val + r.val) = 4096 * t.val + 256 * k.val + r.val
  omega

section Rows
variable (c : Dev nD) (t : Fin cfg0.N) (k : Fin k0_t1_loop.trips) (r : Fin 256)

theorem chunkNorm_eq : chunkNorm (chX (xblk m c t) k) r = Cert.Spec.norm (xarr m c) (rowOf t k r) := by
  have ht : t.val < 16 := lt_of_lt_of_eq t.isLt N_eq
  have hk : k.val < 16 := lt_of_lt_of_eq k.isLt trips_eq
  unfold chunkNorm Cert.Spec.norm Cert.Spec.sumsq
  congr 1
  refine Finset.sum_congr rfl fun cc _ => ?_
  rw [chX_apply _ _ _ _ (by omega), xblk_apply m c t _ _ (by show 4096 * t.val + (256 * k.val + r.val) < 65536; omega)]
  rfl

theorem chunkPick_eq (hr : ∀ n : Fin 65536, 0 ≤ (m ((c : Thread nD τ).loc main_arg1) (ix1 n)).toInt ∧ (m ((c : Thread nD τ).loc main_arg1) (ix1 n)).toInt < 1000) :
    chunkPick (chX (xblk m c t) k) (chT (tblk m c t) k) r
      = Cert.Spec.pick (xarr m c) (m ((c : Thread nD τ).loc main_arg1)) (rowOf t k r) := by
  have ht : t.val < 16 := lt_of_lt_of_eq t.isLt N_eq
  have hk : k.val < 16 := lt_of_lt_of_eq k.isLt trips_eq
  unfold chunkPick Cert.Spec.pick
  have hlab : chT (tblk m c t) k (ix2 r (0 : Fin 1)) = m ((c : Thread nD τ).loc main_arg1) (ix1 (rowOf t k r)) := by
    rw [chT_apply _ _ _ _ (by omega), tblk_apply m c t _ _ (by show 4096 * t.val + (256 * k.val + r.val) < 65536; omega)]
    exact tarr_apply m c (rowOf t k r) (hr _).1 (hr _).2
  rw [hlab]
  refine Finset.sum_congr rfl fun cc _ => ?_
  rw [chX_apply _ _ _ _ (by omega), xblk_apply m c t _ _ (by show 4096 * t.val + (256 * k.val + r.val) < 65536; omega)]
  rfl

end Rows

/-- A block's two partial sums over the specification's row terms. -/
theorem blockG_eq (c : Dev nD) (t : Fin cfg0.N)
    (hr : ∀ n : Fin 65536, 0 ≤ (m ((c : Thread nD τ).loc main_arg1) (ix1 n)).toInt ∧ (m ((c : Thread nD τ).loc main_arg1) (ix1 n)).toInt < 1000) :
    blockG (xblk m c t) (tblk m c t)
      = ∑ k : Fin k0_t1_loop.trips, ∑ r : Fin 256, Cert.Spec.gterm (xarr m c) (m ((c : Thread nD τ).loc main_arg1)) (rowOf t k r) := by
  unfold blockG chunkG Cert.Spec.gterm
  refine Finset.sum_congr rfl fun k _ => Finset.sum_congr rfl fun r _ => ?_
  rw [chunkNorm_eq, chunkPick_eq m c t k r hr]

theorem blockN_eq (c : Dev nD) (t : Fin cfg0.N) :
    blockN (xblk m c t) = ∑ k : Fin k0_t1_loop.trips, ∑ r : Fin 256, Cert.Spec.nterm (xarr m c) (rowOf t k r) := by
  unfold blockN chunkN Cert.Spec.nterm
  refine Finset.sum_congr rfl fun k _ => Finset.sum_congr rfl fun r _ => ?_
  rw [chunkNorm_eq]

/-! ## The two write-out points together -/

theorem pS_7 (b : ℕ → EReal) : pS b 7 = b 0 + b 1 + b 2 + b 3 + b 4 + b 5 + b 6 + b 7 := rfl
theorem pS_15 (b : ℕ → EReal) : pS b 15 = b 8 + b 9 + b 10 + b 11 + b 12 + b 13 + b 14 + b 15 := rfl

theorem pS_total (b : ℕ → EReal) : pS b 7 + pS b 15 = ∑ i ∈ Finset.range 16, b i := by
  rw [pS_7, pS_15]
  simp only [Finset.sum_range_succ, Finset.sum_range_zero, zero_add, add_assoc]

theorem sum_bG (c : Dev nD) : pS (bG m c) 7 + pS (bG m c) 15 = ∑ t : Fin cfg0.N, blockG (xblk m c t) (tblk m c t) := by
  rw [pS_total, ← Fin.sum_univ_eq_sum_range (bG m c) 16]
  refine (Fintype.sum_equiv (finCongr N_eq) _ _ fun t => ?_).symm
  show blockG (xblk m c t) (tblk m c t) = bG m c t.val
  unfold bG
  rw [dif_pos t.isLt]

theorem sum_bN (c : Dev nD) : pS (bN m c) 7 + pS (bN m c) 15 = ∑ t : Fin cfg0.N, blockN (xblk m c t) := by
  rw [pS_total, ← Fin.sum_univ_eq_sum_range (bN m c) 16]
  refine (Fintype.sum_equiv (finCongr N_eq) _ _ fun t => ?_).symm
  show blockN (xblk m c t) = bN m c t.val
  unfold bN
  rw [dif_pos t.isLt]

/-- The two totals are the specification's two sums over all rows. -/
theorem totalG_eq (c : Dev nD)
    (hr : ∀ n : Fin 65536, 0 ≤ (m ((c : Thread nD τ).loc main_arg1) (ix1 n)).toInt ∧ (m ((c : Thread nD τ).loc main_arg1) (ix1 n)).toInt < 1000) :
    pS (bG m c) 7 + pS (bG m c) 15 = ∑ n : Fin 65536, Cert.Spec.gterm (xarr m c) (m ((c : Thread nD τ).loc main_arg1)) n := by
  rw [sum_bG, ← sum_rowOf]
  exact Finset.sum_congr rfl fun t _ => blockG_eq m c t hr

theorem totalN_eq (c : Dev nD) :
    pS (bN m c) 7 + pS (bN m c) 15 = ∑ n : Fin 65536, Cert.Spec.nterm (xarr m c) n := by
  rw [sum_bN, ← sum_rowOf]
  exact Finset.sum_congr rfl fun t _ => blockN_eq m c t

end Cert.KernelIdeal.Hand

end
-- ==== Proof.KI.Value5.lean ====
/-
  The two result arrays and the host lines after the region. Each 16x128 result array ends holding, in its rows 8 p … 8 p + 7,
  core p's running sum at its last point (the two write-out points' blocks tile it). The host lines take entry (8 p, 0) of each,
  add the two cores' entries, and form (−G)/65536 + 0.1·(N/65536): with the two totals the specification's sums over all rows,
  that is the specification's loss.
-/
import proofs.«423638_j28484223107964_3_alg».proof.Proof.KI.Value4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Idealize.ShloMosaic.ValueIdx Idealize.ShloMosaic.StableHlo

variable (m : (ℓ : Loc nD τ sig) → Buf (Elt Ideal) ℓ) (ρ : Dev nD → PrngReg)

/-- The two output windows' block index at point t is (t / 8, 0): the core. -/
theorem idx_out : ∀ t : Fin cfg0.N, win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, win0_2.index t (0 : Fin 2) = t.val / 8 ∧ win0_2.index t (1 : Fin 2) = 0
    ∧ win0_3.index t (0 : Fin 2) = t.val / 8 ∧ win0_3.index t (1 : Fin 2) = 0)

def arrG (c : Dev nD) : Vec Ideal S16x128 .f32 := fun i => pS (bG m c) (8 * ((i 0).val / 8) + 7)

theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2_0).slice (win0_2.rect t)).set ↔ _
  rw [View.set_slice_whole, Rect.mem_set_unit]
  exact Iff.rfl

/-- What a write-out point writes back is its block of the array of running sums. -/
theorem flushedG_eq (c : Dev nD) (t : Fin cfg0.N) (hf : (cfg0.win 2).flush t = true) :
    (dats m 0 c).flushed 2 t = ((cfg0.win 2).blk t).view.read (Elt Ideal) (arrG m c) := by
  have h7 : t.val % 8 = 7 := (flush0_2 t).mp hf
  show (cfg0.win 2).cut (grid0.coords t) ((dats m 0 c).after 2 t) = _
  rw [after_2]
  funext j
  show (outAt m c t.val t.isLt).1 j = arrG m c (((cfg0.win 2).blk t).view.emb j)
  rw [(outAt_eq m c t h7 j).1]
  unfold arrG
  congr 1
  show t.val = 8 * ((win0_2.index t (0 : Fin 2) * 8 + 1 * (j 0).val) / 8) + 7
  rw [(idx_out t).1]
  have hj : (j 0).val < 8 := (j 0).isLt
  omega

/-- The two write-out points' blocks tile the array: it ends holding the running sums. -/
theorem finalG (c : Dev nD) : (dats m 0 c).arrAt 2 cfg0.N = arrG m c :=
  (dats m 0 c).arrAt_eq_of_cover 2 (arrG m c) (flushedG_eq m c) fun i => by
    have hi0 : (i 0).val < 16 := (i 0).isLt
    have hi1 : (i 1).val < 128 := (i 1).isLt
    refine ⟨⟨8 * ((i 0).val / 8) + 7, by rw [N_eq]; omega⟩, (flush0_2 _).mpr (by show (8 * ((i 0).val / 8) + 7) % 8 = 7; omega), ?_⟩
    rw [mem_blk2]
    intro a
    match a with
    | ⟨0, _⟩ =>
      show win0_2.index _ (0 : Fin 2) * 8 ≤ (i 0).val ∧ (i 0).val < win0_2.index _ (0 : Fin 2) * 8 + 8
      rw [(idx_out _).1]
      show (8 * ((i 0).val / 8) + 7) / 8 * 8 ≤ (i 0).val ∧ (i 0).val < (8 * ((i 0).val / 8) + 7) / 8 * 8 + 8
      omega
    | ⟨1, _⟩ =>
      show win0_2.index _ (1 : Fin 2) * 128 ≤ (i 1).val ∧ (i 1).val < win0_2.index _ (1 : Fin 2) * 128 + 128
      rw [(idx_out _).2.1]
      omega

def arrN (c : Dev nD) : Vec Ideal S16x128 .f32 := fun i => pS (bN m c) (8 * ((i 0).val / 8) + 7)

theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2_1).slice (win0_3.rect t)).set ↔ _
  rw [View.set_slice_whole, Rect.mem_set_unit]
  exact Iff.rfl

/-- What a write-out point writes back is its block of the array of running sums. -/
theorem flushedN_eq (c : Dev nD) (t : Fin cfg0.N) (hf : (cfg0.win 3).flush t = true) :
    (dats m 0 c).flushed 3 t = ((cfg0.win 3).blk t).view.read (Elt Ideal) (arrN m c) := by
  have h7 : t.val % 8 = 7 := (flush0_3 t).mp hf
  show (cfg0.win 3).cut (grid0.coords t) ((dats m 0 c).after 3 t) = _
  rw [after_3]
  funext j
  show (outAt m c t.val t.isLt).2 j = arrN m c (((cfg0.win 3).blk t).view.emb j)
  rw [(outAt_eq m c t h7 j).2]
  unfold arrN
  congr 1
  show t.val = 8 * ((win0_3.index t (0 : Fin 2) * 8 + 1 * (j 0).val) / 8) + 7
  rw [(idx_out t).2.2.1]
  have hj : (j 0).val < 8 := (j 0).isLt
  omega

/-- The two write-out points' blocks tile the array: it ends holding the running sums. -/
theorem finalN (c : Dev nD) : (dats m 0 c).arrAt 3 cfg0.N = arrN m c :=
  (dats m 0 c).arrAt_eq_of_cover 3 (arrN m c) (flushedN_eq m c) fun i => by
    have hi0 : (i 0).val < 16 := (i 0).isLt
    have hi1 : (i 1).val < 128 := (i 1).isLt
    refine ⟨⟨8 * ((i 0).val / 8) + 7, by rw [N_eq]; omega⟩, (flush0_3 _).mpr (by show (8 * ((i 0).val / 8) + 7) % 8 = 7; omega), ?_⟩
    rw [mem_blk3]
    intro a
    match a with
    | ⟨0, _⟩ =>
      show win0_3.index _ (0 : Fin 2) * 8 ≤ (i 0).val ∧ (i 0).val < win0_3.index _ (0 : Fin 2) * 8 + 8
      rw [(idx_out _).2.2.1]
      show (8 * ((i 0).val / 8) + 7) / 8 * 8 ≤ (i 0).val ∧ (i 0).val < (8 * ((i 0).val / 8) + 7) / 8 * 8 + 8
      omega
    | ⟨1, _⟩ =>
      show win0_3.index _ (1 : Fin 2) * 128 ≤ (i 1).val ∧ (i 1).val < win0_3.index _ (1 : Fin 2) * 128 + 128
      rw [(idx_out _).2.2.2]
      omega

/-! ## The host lines after the region -/

/-- Entry (p, 0, 0) of a 16x128 array seen as 2x8x128, as a vector over the two cores: entry (8 p, 0). -/
theorem sel_apply (g : Vec Ideal S16x128 .f32) (p : Fin 2) :
    shapeCast S2 (extractStridedSlice S2x1x1 ![0, 0, 0] (shapeCast S2x8x128 g shapeCasts_S16x128_S2x8x128) slices_S2x8x128_S2x1x1_0_0_0)
        shapeCasts_S2x1x1_S2 (ix1 p)
      = g (ix2 ⟨8 * p.val, by omega⟩ (0 : Fin 128)) := by
  rw [shapeCast_apply _ shapeCasts_S2x1x1_S2 (ix1 p) (ix3 p (0 : Fin 1) (0 : Fin 1)) (by
    rw [Shape.rowMajor_val_three, Shape.rowMajor_val_one]; show (p.val * 1 + 0) * 1 + 0 = p.val; omega)]
  rw [extractStridedSlice_apply ![0, 0, 0] _ slices_S2x8x128_S2x1x1_0_0_0 (ix3 p (0 : Fin 1) (0 : Fin 1)) (ix3 p (0 : Fin 8) (0 : Fin 128)) (fun a => by
    match a with
    | ⟨0, _⟩ => show p.val = 0 + p.val; omega
    | ⟨1, _⟩ => rfl
    | ⟨2, _⟩ => rfl)]
  exact shapeCast_apply g shapeCasts_S16x128_S2x8x128 (ix3 p (0 : Fin 8) (0 : Fin 128)) (ix2 ⟨8 * p.val, by omega⟩ (0 : Fin 128)) (by
    rw [Shape.rowMajor_val_three, Shape.rowMajor_val_two]; show 8 * p.val * 128 + 0 = (p.val * 8 + 0) * 128 + 0; omega)

theorem sum_S2 (f : S2.Idx → EReal) : ∑ i, f i = f (ix1 (0 : Fin 2)) + f (ix1 (1 : Fin 2)) := by
  rw [← Equiv.sum_comp (⟨fun a : Fin 2 => (ix1 a : S2.Idx), fun i => i 0, fun _ => rfl, fun i => (eq_ix1 i).symm⟩ : Fin 2 ≃ S2.Idx) f, Fin.sum_univ_two]
  rfl

/-- The host lines after the region, as one function of the two result arrays. -/
def tailF (g nl : Vec Ideal S16x128 .f32) : Vec Ideal S_ .f32 :=
  addf
    (Host.divf
      (Host.negf
        (Host.reduceAdd (F := Ideal)
          (shapeCast S2 (extractStridedSlice S2x1x1 ![0, 0, 0] (shapeCast S2x8x128 g shapeCasts_S16x128_S2x8x128) slices_S2x8x128_S2x1x1_0_0_0) shapeCasts_S2x1x1_S2)
          (constant (F := Ideal) S_ .f32 0x00000000#32) reducesTo_S2_S_d0 h_S_))
      (constant (F := Ideal) S_ .f32 0x47800000#32))
    (mulf (constant (F := Ideal) S_ .f32 0x3DCCCCCD#32)
      (Host.divf
        (Host.reduceAdd (F := Ideal)
          (shapeCast S2 (extractStridedSlice S2x1x1 ![0, 0, 0] (shapeCast S2x8x128 nl shapeCasts_S16x128_S2x8x128) slices_S2x8x128_S2x1x1_0_0_0) shapeCasts_S2x1x1_S2)
          (constant (F := Ideal) S_ .f32 0x00000000#32) reducesTo_S2_S_d0 h_S_)
        (constant (F := Ideal) S_ .f32 0x47800000#32)))

theorem tailF_apply (g nl : Vec Ideal S16x128 .f32) (i : S_.Idx) :
    tailF g nl i
      = Ideal.div (-(g (ix2 ⟨0, by omega⟩ (0 : Fin 128)) + g (ix2 ⟨8, by omega⟩ (0 : Fin 128)))) Cert.Spec.cnt
        + Cert.Spec.tenth * Ideal.div (nl (ix2 ⟨0, by omega⟩ (0 : Fin 128)) + nl (ix2 ⟨8, by omega⟩ (0 : Fin 128))) Cert.Spec.cnt := by
  unfold tailF
  simp only [addf_apply, mulf_apply, Host.divf, Host.negf, Host.reduceAdd, Ideal.hostDivf_def, Ideal.hostNegf_def, Ideal.negf_def,
    Ideal.hostReduceAdd_def, constant_apply]
  rw [Ideal.hostReduceAdd_total reducesTo_S2_S_d0 (fun b => b.elim0), Ideal.hostReduceAdd_total reducesTo_S2_S_d0 (fun b => b.elim0)]
  rw [sum_S2, sum_S2, sel_apply, sel_apply, sel_apply, sel_apply]
  simp only [Ideal.ofBits_zero_f32, zero_add]
  rfl

/-- What the program's result buffer holds after the run: the host lines of the two result arrays. -/
theorem result_tail (c : Dev nD) :
    Pipeline.afterTail₀ cfgs (dats m) 0 (V0 m) [hostOps1] c main_v15
      = tailF ((dats m 0 c).arrAt 2 cfg0.N) ((dats m 0 c).arrAt 3 cfg0.N) := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v2_0)
      = (dats m 0 c).arrAt 2 cfg0.N from Pipeline.withArrays_arr spec0 launch0.win.arr_inj c _ _ 2,
    show Pipeline.withArrays (cfgs 0).spec c (V0 m c) (fun w => (dats m 0 c).arrAt w (cfgs 0).N) (Proc.devRef .tc main_v2_1)
      = (dats m 0 c).arrAt 3 cfg0.N from Pipeline.withArrays_arr spec0 launch0.win.arr_inj c _ _ 3]
  rfl

/-- With every label in [0, 1000) the program's result is the specification's loss of the two argument arrays. -/
theorem result_eq (c : Dev nD)
    (hr : ∀ n : Fin 65536, 0 ≤ (m ((c : Thread nD τ).loc main_arg1) (ix1 n)).toInt ∧ (m ((c : Thread nD τ).loc main_arg1) (ix1 n)).toInt < 1000)
    (i : S_.Idx) :
    Pipeline.afterTail₀ cfgs (dats m) 0 (V0 m) [hostOps1] c main_v15 i
      = Cert.Spec.loss (m ((c : Thread nD τ).loc main_arg0)) (m ((c : Thread nD τ).loc main_arg1)) := by
  rw [result_tail, tailF_apply, finalG, finalN]
  have e7 : ∀ b : ℕ → EReal, pS b (8 * ((0 : ℕ) / 8) + 7) = pS b 7 := fun _ => rfl
  have e15 : ∀ b : ℕ → EReal, pS b (8 * ((8 : ℕ) / 8) + 7) = pS b 15 := fun _ => rfl
  show Ideal.div (-(pS (bG m c) (8 * ((0 : ℕ) / 8) + 7) + pS (bG m c) (8 * ((8 : ℕ) / 8) + 7))) Cert.Spec.cnt
      + Cert.Spec.tenth * Ideal.div (pS (bN m c) (8 * ((0 : ℕ) / 8) + 7) + pS (bN m c) (8 * ((8 : ℕ) / 8) + 7)) Cert.Spec.cnt = _
  rw [e7, e15, e7, e15, totalG_eq m c hr, totalN_eq m c]
  unfold Cert.Spec.loss
  rw [show xarr m c = m ((c : Thread nD τ).loc main_arg0) from V_main_arg0 m c]

/-- THE RUN, READ: every weakly fair execution terminates with the result buffer at the specification's loss of the argument
    arrays, and both argument arrays as launched. -/
theorem run_value
    (hr : ∀ (c : Dev nD) (n : Fin 65536), 0 ≤ (m ((c : Thread nD τ).loc main_arg1) (ix1 n)).toInt ∧ (m ((c : Thread nD τ).loc main_arg1) (ix1 n)).toInt < 1000) :
    θ_run defs (onTc (τ := τ) (main (F := Ideal))) ⟨m, fun _ => 0, ρ⟩ (fun r => ∀ c : Dev nD,
      r.2.mem ((c.tc : Thread nD τ).loc main_v15) = (fun _ => Cert.Spec.loss (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v15 (Pipeline.mem_restRefs_of main_v15 (by decide) (by decide))).trans (funext fun i => result_eq m c (hr c) i),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Hand

end
-- ==== Proof.LibGatherAlong.lean ====
/-
  THE BATCHED TAKE ALONG AN AXIS, READ AT AN INDEX.

  Picking, in every row of a table `x : [R, N]`, the entries at the columns an integer array `idx : [R, C]` names
  (`take_along_axis(x, idx, axis = 1)`) is a gather whose rows are BATCHED: row `b` of the result reads row `b` of
  the operand and row `b` of the indices. Its dimension numbers, over the indices as `[R, C, 1]`: no offset axes;
  operand axis 1 collapsed and addressed by the start index (start index map `[1]`); operand axis 0 a batching axis
  paired with indices axis 0; the index vector on indices axis 2; slices of one element (`[1, 1]`).

  Result element `(b, s)` is the operand at row `b` and at the column `idx[b, s, 0]`, that word read as a SIGNED
  integer and CLAMPED into `[0, N − 1]`: a negative word reads column 0 (the signed value's natural-number part is 0),
  a word at or past `N` reads the last column `N − 1`. In range, `0 ≤ z < N`, the column is `z` itself
  (`gather_along_inrange`).
-/
import Idealize.ShloMosaic.PureOps.ShapeOps
import Idealize.ShloMosaic.Lib.ValueIdx

noncomputable section

namespace Idealize.ShloMosaic.Host

open Idealize.ShloMosaic Idealize.ShloMosaic.ValueIdx

variable {α : Type}

/-- The dimension numbers of the batched take along axis 1, for an operand `[R, N]`, start indices `[R, C, 1]` and a
    result `[R, C]`; their conditions `wf` are decided on a program's literal shapes. -/
abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, s)`: row `b` of the operand, at the column `idx[b, s, 0]` read signed and clamped into
    `[0, N − 1]` (a negative word gives column 0, a word at or past `N` gives column `N − 1`). -/
theorem gather_along_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (s : Fin C) :
    Host.gather (alongDims R N C wf) x idx (ix2 b s)
      = x (ix2 b ⟨min (idx (ix3 b s (0 : Fin 1))).toInt.toNat (N - 1), by omega⟩) := by
  unfold Host.gather
  congr 1
  funext a
  refine Fin.ext ?_
  match a with
  | ⟨0, _⟩ =>
    -- the batching axis: no start, no offset; the row is the result's own row
    show (alongDims R N C wf).start (ix2 b s) idx 0 + (alongDims R N C wf).batchCoord (ix2 b s) 0
        + (alongDims R N C wf).offCoord (ix2 b s) 0 = b.val
    have hb : (0 : Fin 2) ∈ (alongDims R N C wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    -- the collapsed axis: the clamped start index alone
    show (alongDims R N C wf).start (ix2 b s) idx 1 + (alongDims R N C wf).batchCoord (ix2 b s) 1
        + (alongDims R N C wf).offCoord (ix2 b s) 1 = min (idx (ix3 b s (0 : Fin 1))).toInt.toNat (N - 1)
    have hc : (1 : Fin 2) ∈ (alongDims R N C wf).collapsedSliceDims := List.mem_singleton.mpr rfl
    have hnb : (1 : Fin 2) ∉ (alongDims R N C wf).operandBatchingDims := fun h =>
      Nat.one_ne_zero (congrArg Fin.val (List.mem_singleton.mp h))
    have hm : (1 : Fin 2) ∈ (alongDims R N C wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (alongDims R N C wf).siIdx (ix2 b s) ⟨List.idxOf (1 : Fin 2) (alongDims R N C wf).startIndexMap,
        List.idxOf_lt_length_iff.2 hm⟩ = ix3 b s (0 : Fin 1) := by
      funext c; refine Fin.ext ?_
      match c with
      | ⟨0, _⟩ => rfl
      | ⟨1, _⟩ => rfl
      | ⟨2, _⟩ => rfl
    rw [hsi]
    rfl

/-- The same for ANY dimension-number record of these shapes whose fields are the batched take's lists (a program's
    printed record is one: each hypothesis by `rfl`). -/
theorem gather_along_apply_of {R N C w : Nat} (hN : 0 < N)
    (d : GatherDims ⟨2, ![R, N]⟩ ⟨3, ![R, C, 1]⟩ ⟨2, ![R, C]⟩)
    (hod : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1])
    (x : (⟨2, ![R, N]⟩ : Shape).Idx → α) (idx : IVec ⟨3, ![R, C, 1]⟩ w) (b : Fin R) (s : Fin C) :
    Host.gather d x idx (ix2 b s)
      = x (ix2 b ⟨min (idx (ix3 b s (0 : Fin 1))).toInt.toNat (N - 1), by omega⟩) := by
  obtain ⟨od, cd, ob, sb, sm, iv, ss, wf⟩ := d
  simp only at hod hcoll hob hsb hsim hivd hss
  subst hod hcoll hob hsb hsim hivd hss
  exact gather_along_apply hN wf x idx b s

/-- IN RANGE the clamp is the identity: a start word whose signed value `z` has `0 ≤ z < N` reads column `z`. -/
theorem gather_along_inrange {R N C w : Nat}
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (s : Fin C)
    (h0 : 0 ≤ (idx (ix3 b s (0 : Fin 1))).toInt) (hlt : (idx (ix3 b s (0 : Fin 1))).toInt < N) :
    Host.gather (alongDims R N C wf) x idx (ix2 b s)
      = x (ix2 b ⟨(idx (ix3 b s (0 : Fin 1))).toInt.toNat, by omega⟩) := by
  have hN : 0 < N := by omega
  rw [gather_along_apply hN wf x idx b s]
  congr 2
  refine Fin.ext ?_
  show min (idx (ix3 b s (0 : Fin 1))).toInt.toNat (N - 1) = (idx (ix3 b s (0 : Fin 1))).toInt.toNat
  omega

end Idealize.ShloMosaic.Host

end
-- ==== Proof.RefSide.lean ====
/-
  The reference at the ideal instance is the specification's loss.

  Row by row: the norm column is √(Σ_c x[n,c]²); the gap column is (1 − norm n)²; and, every label being a column
  (0 ≤ z < 1000 read signed), the wrapped label select (t < 0) (t + 1000) t is t, the in-bounds mask (0 ≤ z ∧ z ≤ 999,
  reduced by `and` over a unit axis) is 1, so the select keeps the gather, whose clamped column min z 999 is z: the
  gathered entry is x[n, t n] / (norm n + ε), the masked row sum of the specification over the same denominator.
  The two total sums start from the zero word, which adds nothing, and a sum over a rank-1 index set or over a column
  is the sum over the rows. The four literals are the same words on both sides and are never evaluated.
-/
import proofs.«423638_j28484223107964_3_alg».proof.Proof.RefReadP
import proofs.«423638_j28484223107964_3_alg».proof.Proof.Spec
import proofs.«423638_j28484223107964_3_alg».proof.Proof.LibGatherAlong
import proofs.«423638_j28484223107964_3_alg».proof.Proof.LibKeepdims
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Affine

noncomputable section

namespace Cert.RefSide

open Cert.ReferenceIdeal Cert.ReferenceIdeal.Gen Idealize.ShloMosaic Idealize.ShloMosaic.TcCoe Idealize.SL.Sem Idealize.ShloMosaic.ValueIdx

/-! ## General lemmas -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column `[n, 1]` is the sum over its rows. -/
theorem sum_col {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  rw [Fin.sum_univ_one]

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- A reduce by `and`, from 1, of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x _ fun n _ => hx n

/-! ## The row norms -/

/-- The reference's norm column at row `n` is the specification's norm: the square root of the row's sum of squares
    (the sum's zero start adds nothing). -/
theorem norm_eq (x : (⟨S65536x1000, .f32⟩ : BufTy).Contents (Elt Ideal)) (n : Fin 65536) :
    Cert.ReferenceIdeal.ReadP.val_main_v0 (F := Ideal) x (ix2 n (0 : Fin 1)) = Cert.Spec.norm x n := by
  have hi : Cert.ReferenceIdeal.ReadP.idx_main_call0_v2 (ix2 n (0 : Fin 1)) = ix1 n := by
    funext a; match a with | ⟨0, _⟩ => rfl
  rw [ReadP.val_main_v0_apply, Ideal.hostUnary_sqrt_def, ReadP.val_main_call0_v2_apply, hi, ReadP.val_main_call0_v1_apply,
    ReadP.val_main_call0_cst_apply, Ideal.ofBits_def, Ideal.ofBits_zero_f32, zero_add]
  unfold Cert.Spec.norm Cert.Spec.sumsq
  congr 1
  refine Finset.sum_congr rfl fun k _ => ?_
  have hk : Cert.ReferenceIdeal.ReadP.idx_main_call0_v1 (ix1 n) k = ix2 n k := by
    funext a; match a with | ⟨0, _⟩ => rfl | ⟨1, _⟩ => rfl
  rw [ReadP.val_main_call0_v0_apply, Ideal.mulf_def, hk]

/-- The reference's squared gap column at row `n` is the specification's: (1 − norm n)². -/
theorem nl_eq (x : (⟨S65536x1000, .f32⟩ : BufTy).Contents (Elt Ideal)) (n : Fin 65536) :
    Cert.ReferenceIdeal.ReadP.val_main_v12 (F := Ideal) x (ix2 n (0 : Fin 1)) = Cert.Spec.nterm x n := by
  rw [ReadP.val_main_v12_apply, Ideal.mulf_def, ReadP.val_main_v11_apply, Ideal.subf_def, ReadP.val_main_v10_apply,
    ReadP.val_main_cst_1_apply, Ideal.ofBits_def, norm_eq]
  rfl

/-! ## The gathered column -/

/-- In range the wrapped label is the label: `select (t < 0) (t + 1000) t` keeps `t` when `0 ≤ t`. -/
theorem wrap_eq (t : (⟨S65536, .i32⟩ : BufTy).Contents (Elt Ideal)) (n : Fin 65536) (h0 : 0 ≤ (t (ix1 n)).toInt) :
    Cert.ReferenceIdeal.ReadP.val_main_call1_v4 (F := Ideal) t (ix2 n (0 : Fin 1)) = t (ix1 n) := by
  have hi : Cert.ReferenceIdeal.ReadP.idx_main_v5 (ix2 n (0 : Fin 1)) = ix1 n := by
    funext a; match a with | ⟨0, _⟩ => rfl
  have hc : ¬ IntOp.cmpi .slt (t (ix1 n)) 0#32 = 1#1 := by
    intro hc
    have h := IntOp.cmpi_slt.1 hc
    rw [show (0#32 : BitVec 32).toInt = 0 from by decide] at h
    omega
  rw [ReadP.val_main_call1_v4_apply, ReadP.val_main_call1_v1_apply, ReadP.val_main_v5_apply, hi,
    ReadP.val_main_call1_v0_apply, ReadP.val_main_call1_c_apply]
  exact if_neg hc

/-- The start-index array `[65536, 1, 1]` reads, at `(p, q, r)`, the wrapped label of row `p`. -/
theorem start_eq (t : (⟨S65536, .i32⟩ : BufTy).Contents (Elt Ideal)) (p : Fin 65536) (q r : Fin 1)
    (h0 : 0 ≤ (t (ix1 p)).toInt) :
    Cert.ReferenceIdeal.ReadP.val_main_call1_v5 (F := Ideal) t (ix3 p q r) = t (ix1 p) := by
  have hi : Cert.ReferenceIdeal.ReadP.idx_main_call1_v5 (ix3 p q r) = ix2 p (0 : Fin 1) := by
    funext a
    match a with
    | ⟨0, _⟩ =>
      refine Fin.ext ?_
      show ((p.val * 1 + q.val) * 1 + r.val) / 1 = p.val
      have hq := q.isLt; have hr := r.isLt
      omega
    | ⟨1, _⟩ => rfl
  rw [ReadP.val_main_call1_v5_apply, hi, wrap_eq t p h0]

/-- In range the in-bounds mask is 1 at every row: each start index has `0 ≤ z` and `z ≤ 999`. -/
theorem mask_eq (t : (⟨S65536, .i32⟩ : BufTy).Contents (Elt Ideal))
    (hr : ∀ n : Fin 65536, 0 ≤ (t (ix1 n)).toInt ∧ (t (ix1 n)).toInt < 1000) (j : S65536x1.Idx) :
    Cert.ReferenceIdeal.ReadP.val_main_call1_v12 (F := Ideal) t j = 1#1 := by
  unfold Cert.ReferenceIdeal.ReadP.val_main_call1_v12
  refine reduce_andi_ones _ _ _ _ (fun i => ?_) rfl j
  obtain ⟨p, q, r, rfl⟩ : ∃ (p : Fin 65536) (q r : Fin 1), i = ix3 p q r := ⟨i 0, i 1, i 2, eq_ix3 i⟩
  rw [ReadP.val_main_call1_v11_apply, IntOp.andi_eq_one]
  constructor
  · rw [ReadP.val_main_call1_v7_apply, IntOp.cmpi_sge, start_eq t p q r (hr p).1, ReadP.val_main_call1_v6_apply,
      ReadP.val_main_call1_c_2_apply, show (0#32 : BitVec 32).toInt = 0 from by decide]
    exact (hr p).1
  · rw [ReadP.val_main_call1_v10_apply, IntOp.cmpi_sle, start_eq t p q r (hr p).1, ReadP.val_main_call1_v9_apply,
      ReadP.val_main_call1_v8_apply, ReadP.val_main_call1_c_1_apply, show (999#32 : BitVec 32).toInt = 999 from by decide]
    have := (hr p).2
    omega

/-- The normalised table at `(n, c)` is the entry over the row's norm plus ε. -/
theorem scaled_eq (x : (⟨S65536x1000, .f32⟩ : BufTy).Contents (Elt Ideal)) (n : Fin 65536) (c : Fin 1000) :
    Cert.ReferenceIdeal.ReadP.val_main_v4 (F := Ideal) x (ix2 n c)
      = Ideal.div (x (ix2 n c)) (Cert.Spec.norm x n + Cert.Spec.eps) := by
  have hi : Cert.ReferenceIdeal.ReadP.idx_main_v3 (ix2 n c) = ix2 n (0 : Fin 1) := by
    funext a; match a with | ⟨0, _⟩ => rfl | ⟨1, _⟩ => rfl
  rw [ReadP.val_main_v4_apply, Ideal.hostDivf_def, ReadP.val_main_v3_apply, hi, ReadP.val_main_v2_apply, Ideal.addf_def,
    norm_eq, ReadP.val_main_v1_apply, ReadP.val_main_cst_apply, Ideal.ofBits_def]
  rfl

/-- In range the gathered entry of row `n` is the specification's: the normalised table read at the label's column. -/
theorem gathered_eq (x : (⟨S65536x1000, .f32⟩ : BufTy).Contents (Elt Ideal)) (t : (⟨S65536, .i32⟩ : BufTy).Contents (Elt Ideal))
    (hr : ∀ n : Fin 65536, 0 ≤ (t (ix1 n)).toInt ∧ (t (ix1 n)).toInt < 1000) (n : Fin 65536) :
    Cert.ReferenceIdeal.ReadP.val_main_v7 (F := Ideal) x t (ix1 n) = Cert.Spec.gterm x t n := by
  obtain ⟨h0, hlt⟩ := hr n
  have hz : (t (ix1 n)).toInt.toNat < 1000 := by omega
  -- the flattening reads the column at (n, 0); the mask is 1 there, so the select keeps the gather
  unfold Cert.ReferenceIdeal.ReadP.val_main_v7
  rw [shapeCast_a1_a_apply, ReadP.val_main_v6_apply, mask_eq t hr]
  show Cert.ReferenceIdeal.ReadP.val_main_call1_v13 (F := Ideal) x t (ix2 n (0 : Fin 1)) = _
  -- the gather at (n, 0) reads row n at the clamped start index, which is the label
  unfold Cert.ReferenceIdeal.ReadP.val_main_call1_v13
  rw [Host.gather_along_apply_of (by decide) gather_S65536x1000_S65536x1x1_S65536x1_n_1_0_0_1_2_11 rfl rfl rfl rfl rfl rfl rfl]
  -- the clamped column min z 999 is z, the start index being the label and the label below 1000
  refine (congrArg (fun c : Fin 1000 => Cert.ReferenceIdeal.ReadP.val_main_v4 (F := Ideal) x (ix2 n c))
    (Fin.ext ?_ : _ = (⟨(t (ix1 n)).toInt.toNat, hz⟩ : Fin 1000))).trans ?_
  · show min (Cert.ReferenceIdeal.ReadP.val_main_call1_v5 (F := Ideal) t (ix3 n 0 0)).toInt.toNat (1000 - 1)
      = (t (ix1 n)).toInt.toNat
    rw [start_eq t n 0 0 h0]
    omega
  · rw [scaled_eq]
    unfold Cert.Spec.gterm
    rw [Cert.Spec.pick_eq x t n h0 hlt]

/-- With every label a column (0 ≤ z < 1000 read signed), the reference's result is the specification's loss. -/
theorem ref_loss (x : (⟨S65536x1000, .f32⟩ : BufTy).Contents (Elt Ideal)) (t : (⟨S65536, .i32⟩ : BufTy).Contents (Elt Ideal))
    (hr : ∀ n : Fin 65536, 0 ≤ (t (ix1 n)).toInt ∧ (t (ix1 n)).toInt < 1000) (i : S_.Idx) :
    Cert.ReferenceIdeal.ReadP.val_main_v17 (F := Ideal) x t i = Cert.Spec.loss x t := by
  -- the result is (−Σ gathered) / 65536 + 0.1 · ((Σ gap²) / 65536); both sums start from the zero word
  rw [ReadP.val_main_v17_apply, Ideal.addf_def,
    ReadP.val_main_v13_apply, Ideal.hostDivf_def, ReadP.val_main_v9_apply, Ideal.hostNegf_def, Ideal.negf_def,
    ReadP.val_main_v8_apply, ReadP.val_main_cst_0_apply, Ideal.ofBits_def, Ideal.ofBits_zero_f32, zero_add,
    ReadP.val_main_cst_2_apply, Ideal.ofBits_def,
    ReadP.val_main_v16_apply, Ideal.mulf_def, ReadP.val_main_cst_5_apply, Ideal.ofBits_def,
    ReadP.val_main_v15_apply, Ideal.hostDivf_def, ReadP.val_main_v14_apply, ReadP.val_main_cst_3_apply, Ideal.ofBits_def,
    Ideal.ofBits_zero_f32, zero_add, ReadP.val_main_cst_4_apply, Ideal.ofBits_def,
    sum_idx1, sum_col]
  -- row by row the summands are the specification's
  have hg : ∑ a : Fin 65536, Cert.ReferenceIdeal.ReadP.val_main_v7 (F := Ideal) x t (ix1 a)
      = ∑ n : Fin 65536, Cert.Spec.gterm x t n := Finset.sum_congr rfl fun n _ => gathered_eq x t hr n
  have hn : ∑ a : Fin 65536, Cert.ReferenceIdeal.ReadP.val_main_v12 (F := Ideal) x (ix2 a (0 : Fin 1))
      = ∑ n : Fin 65536, Cert.Spec.nterm x n := Finset.sum_congr rfl fun n _ => nl_eq x n
  rw [hg, hn]
  rfl

end Cert.RefSide

end
-- ==== Proof.PreDecode.lean ====
/-
  What the precondition says of the labels: the printed predicate ends in the conjunction of an all-reduce over the
  floats (dropped here) and an all-reduce, by `and`, of the elementwise test 0 ≤ t n ∧ t n < 1000 (both compares signed).
  The whole being 1, the second all-reduce is 1, so the test holds at every n, and each signed compare that came out 1
  is the inequality between the two words read as integers.
-/
import proofs.«423638_j28484223107964_3_alg».proof.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- The rank-0 shape has one index. -/
instance subsingleton_scalar_idx : Subsingleton Cert.Pre_finite_inputs.S_.Idx :=
  ⟨fun a b => funext fun d => d.elim0⟩

/-- If the printed precondition is all ones, every label read signed lies in [0, 1000). -/
theorem range_of_pre {F : FTy → Type} [FloatOps F] [Cert.Pre_finite_inputs.Facts]
    (x : FVec F Cert.Pre_finite_inputs.S65536x1000 .f32) (t : IVec Cert.Pre_finite_inputs.S65536 32)
    (h : Cert.Pre_finite_inputs.fn (F := F) x t = fun _ => 1#1) (n : Fin 65536) :
    0 ≤ (t (ix1 n)).toInt ∧ (t (ix1 n)).toInt < 1000 := by
  -- the result at its one index is 1
  have h0 := congrFun h ix0
  dsimp only [Cert.Pre_finite_inputs.fn] at h0
  -- the final conjunction: keep the labels' half
  obtain ⟨-, h9⟩ := IntOp.andi_eq_one.1 h0
  -- the all-reduce by `and` is 1: the elementwise test is 1 at n
  have hn := Host.reduce_andi_all _ _ _ _ ix0 h9 (ix1 n)
  -- the test is the conjunction of the two compares against the broadcast constants
  obtain ⟨hge, hlt⟩ := IntOp.andi_eq_one.1 hn
  have hge' := IntOp.cmpi_sge.1 hge
  have hlt' := IntOp.cmpi_slt.1 hlt
  have e0 : (0#32 : BitVec 32).toInt = 0 := by decide
  have e1000 : (1000#32 : BitVec 32).toInt = 1000 := by decide
  simp only [broadcastInDim, constantI, e0] at hge'
  simp only [broadcastInDim, constantI, e1000] at hlt'
  exact ⟨hge', hlt'⟩

end Cert.PreDecode

end
-- ==== Proof.lean ====
/-
  The certificate's five claims.

  The kernel computes, for a table x : [65536, 1000] and labels t : [65536] (each label a class in [0, 1000), which the
  precondition states), the loss  (−Σ_n x[n, t n] / (‖x[n,·]‖ + ε)) / 65536 + 0.1 · (Σ_n (1 − ‖x[n,·]‖)²) / 65536:
  a 2 x 8 grid of 4096-row blocks, each walked in sixteen 256-row chunks, two 1x1 accumulators carried along each core's eight
  points and written out at the last; the host adds the two cores' partial sums. The reference computes the same loss with one
  row-wise gather and two whole sums. Over the extended reals the two are one function (`Cert.Spec.loss`): every step on either
  side is the same operation of the same words, and the only difference is the grouping of two finite sums.

  The frames of the two kernel programs are proved by hand over the generated launch lemmas (the body's three cases, the
  accumulators tracked point by point); the reference's frame is its run with the result dropped.
-/
import proofs.«423638_j28484223107964_3_alg».proof.Defs
import proofs.«423638_j28484223107964_3_alg».proof.Proof.Gen.Kernel
import proofs.«423638_j28484223107964_3_alg».proof.Proof.Gen.KernelIdeal
import proofs.«423638_j28484223107964_3_alg».proof.Proof.Gen.ReferenceIdeal
import proofs.«423638_j28484223107964_3_alg».proof.Proof.Gen.Pre_finite_inputs
import proofs.«423638_j28484223107964_3_alg».proof.Proof.K.Frame
import proofs.«423638_j28484223107964_3_alg».proof.Proof.KI.Value5
import proofs.«423638_j28484223107964_3_alg».proof.Proof.RefSide
import proofs.«423638_j28484223107964_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs, faults nowhere and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Under the precondition both programs end at the specification's loss of the (agreeing) argument arrays. -/
theorem algebraic : Cert.algebraic_KernelIdeal_ReferenceIdeal := by
  intro m ρ m' ρ' hpre hagree
  have hr : ∀ (c : Dev Cert.KernelIdeal.nD) (n : Fin 65536),
      0 ≤ (m ((c : Thread Cert.KernelIdeal.nD Cert.KernelIdeal.τ).loc Cert.KernelIdeal.main_arg1) (ix1 n)).toInt
      ∧ (m ((c : Thread Cert.KernelIdeal.nD Cert.KernelIdeal.τ).loc Cert.KernelIdeal.main_arg1) (ix1 n)).toInt < 1000 :=
    fun c n => Cert.PreDecode.range_of_pre _ _ (hpre c) n
  refine ⟨fun c => fun _ => Cert.Spec.loss (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run_value m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq]
  funext i
  rw [Cert.RefSide.ref_loss _ _ (fun n => by rw [(hagree c).2]; exact hr c n) i, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
